-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S256x64 : Shape := ⟨2, ![256, 64]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel

variable [Facts]

def fn {F : FTy → Type} [FloatOps F] (main_arg0 : FVec F S256x64x1024 .f32) (main_arg1 : IVec S256x64 32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  main_v3
-- ==== Kernel.lean ====
abbrev S256x64x1024 : Shape := ⟨3, ![256, 64, 1024]⟩
abbrev S256x64 : Shape := ⟨2, ![256, 64]⟩
abbrev S64x64 : Shape := ⟨2, ![64, 64]⟩
abbrev S64x1x64 : Shape := ⟨3, ![64, 1, 64]⟩
abbrev S256x64x64 : Shape := ⟨3, ![256, 64, 64]⟩
abbrev S16x64x1024 : Shape := ⟨3, ![16, 64, 1024]⟩
abbrev S16x64x64 : Shape := ⟨3, ![16, 64, 64]⟩
abbrev S16x64 : Shape := ⟨2, ![16, 64]⟩
abbrev S16x64x1 : Shape := ⟨3, ![16, 64, 1]⟩
abbrev S64x256x64 : Shape := ⟨3, ![64, 256, 64]⟩
abbrev S64x256 : Shape := ⟨2, ![64, 256]⟩
abbrev S64x1x256 : Shape := ⟨3, ![64, 1, 256]⟩
abbrev S64x1x128 : Shape := ⟨3, ![64, 1, 128]⟩
abbrev S1x256x64 : Shape := ⟨3, ![1, 256, 64]⟩
abbrev S1x1x256 : Shape := ⟨3, ![1, 1, 256]⟩
abbrev S1x1x64 : Shape := ⟨3, ![1, 1, 64]⟩
abbrev S1x1x128 : Shape := ⟨3, ![1, 1, 128]⟩
abbrev S256 : Shape := ⟨1, ![256]⟩
abbrev S64 : Shape := ⟨1, ![64]⟩
abbrev S1x64 : Shape := ⟨2, ![1, 64]⟩
abbrev S256x64x1 : Shape := ⟨3, ![256, 64, 1]⟩
abbrev S256x1x64 : Shape := ⟨3, ![256, 1, 64]⟩
abbrev S1x64x1 : Shape := ⟨3, ![1, 64, 1]⟩
abbrev S1x64x64 : Shape := ⟨3, ![1, 64, 64]⟩
abbrev S256x1x1 : Shape := ⟨3, ![256, 1, 1]⟩
abbrev S1x256 : Shape := ⟨2, ![1, 256]⟩
abbrev S1 : Shape := ⟨1, ![1]⟩
abbrev S1x1 : Shape := ⟨2, ![1, 1]⟩
abbrev S1x128 : Shape := ⟨2, ![1, 128]⟩
abbrev S64x1x1 : Shape := ⟨3, ![64, 1, 1]⟩
abbrev S_ : Shape := ⟨0, ![]⟩

abbrev nBuf : Space → Nat
  | .hbm => 26
  | .vmem => 15
  | .smem => 0
  | _ => 0

abbrev bufTy : (tb : Table) → Fin (tcTables nBuf tb) → BufTy
  | .hbm, ⟨0, _⟩ => ⟨S256x64x1024, .f32⟩
  | .hbm, ⟨1, _⟩ => ⟨S256x64, .i32⟩
  | .hbm, ⟨2, _⟩ => ⟨S64x64, .f32⟩
  | .hbm, ⟨3, _⟩ => ⟨S64x64, .f32⟩
  | .hbm, ⟨4, _⟩ => ⟨S64x1x64, .f32⟩
  | .hbm, ⟨5, _⟩ => ⟨S64x1x64, .f32⟩
  | .hbm, ⟨6, _⟩ => ⟨S256x64x64, .f32⟩
  | .hbm, ⟨7, _⟩ => ⟨S64x256x64, .f32⟩
  | .hbm, ⟨8, _⟩ => ⟨S256x64, .f32⟩
  | .hbm, ⟨9, _⟩ => ⟨S64x256, .f32⟩
  | .hbm, ⟨10, _⟩ => ⟨S64x1x256, .f32⟩
  | .hbm, ⟨11, _⟩ => ⟨S64x1x128, .f32⟩
  | .hbm, ⟨12, _⟩ => ⟨S64x1x1, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S64x1x1, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S16x64x1024, .f32⟩
  | .local _ .vmem, ⟨1, _⟩ => ⟨S16x64x1024, .f32⟩
  | .local _ .vmem, ⟨2, _⟩ => ⟨S16x64x64, .f32⟩
  | .local _ .vmem, ⟨3, _⟩ => ⟨S16x64x64, .f32⟩
  | .local _ .vmem, ⟨4, _⟩ => ⟨S1x256x64, .f32⟩
  | .local _ .vmem, ⟨5, _⟩ => ⟨S1x256x64, .f32⟩
  | .local _ .vmem, ⟨6, _⟩ => ⟨S256x64, .f32⟩
  | .local _ .vmem, ⟨7, _⟩ => ⟨S1x1x256, .f32⟩
  | .local _ .vmem, ⟨8, _⟩ => ⟨S1x1x256, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x128, .f32⟩
  | .local _ .vmem, ⟨14, _⟩ => ⟨S1x1x128, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64x64_S64x1x64 : S64x64.ShapeCasts S64x1x64
  inb_S16x64x1024_S16x64x1024_0_0_0 : ∀ a, (![0, 0, 0] : Fin 3 → Nat) a + S16x64x1024.size a ≤ S16x64x1024.size a
  h_S16x64x1024 : 0 < S16x64x1024.numel
  reduces_S16x64x1024_S16x64 : S16x64x1024.Reduces [2] S16x64
  shapeCasts_S16x64_S16x64x1 : S16x64.ShapeCasts S16x64x1
  broadcasts_S16x64x1_S16x64x1024 : S16x64x1.Broadcasts S16x64x1024
  bitsLt_bf16_f32 : FTy.bits .bf16 < FTy.bits .f32
  inb_S16x64x64_S16x64x64_0_0_0 : ∀ a, (![0, 0, 0] : Fin 3 → Nat) a + S16x64x64.size a ≤ S16x64x64.size a
  h_S16x64x64 : 0 < S16x64x64.numel
  transposes_S256x64x64_S64x256x64_1_0_2 : S256x64x64.Transposes [1, 0, 2] S64x256x64
  transposes_S256x64_S64x256_1_0 : S256x64.Transposes [1, 0] S64x256
  shapeCasts_S64x256_S64x1x256 : S64x256.ShapeCasts S64x1x256
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  shapeCasts_S1x256x64_S256x64 : S1x256x64.ShapeCasts S256x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S1x1x64_S64 : S1x1x64.ShapeCasts S64
  shapeCasts_S64_S1x64 : S64.ShapeCasts S1x64
  broadcasts_S1x64_S256x64 : S1x64.Broadcasts S256x64
  shapeCasts_S256x64_S256x64x1 : S256x64.ShapeCasts S256x64x1
  shapeCasts_S256x64_S256x1x64 : S256x64.ShapeCasts S256x1x64
  broadcasts_S256x64x1_S256x64x64 : S256x64x1.Broadcasts S256x64x64
  broadcasts_S256x1x64_S256x64x64 : S256x1x64.Broadcasts S256x64x64
  shapeCasts_S64_S1x64x1 : S64.ShapeCasts S1x64x1
  shapeCasts_S64_S1x1x64 : S64.ShapeCasts S1x1x64
  broadcasts_S1x64x1_S1x64x64 : S1x64x1.Broadcasts S1x64x64
  broadcasts_S1x1x64_S1x64x64 : S1x1x64.Broadcasts S1x64x64
  shapeCasts_S256_S256x1x1 : S256.ShapeCasts S256x1x1
  broadcasts_S256x1x1_S256x64x64 : S256x1x1.Broadcasts S256x64x64
  broadcasts_S1x64x64_S256x64x64 : S1x64x64.Broadcasts S256x64x64
  reduces_S256x64x64_S256x64 : S256x64x64.Reduces [2] S256x64
  reduces_S256x64_S256 : S256x64.Reduces [1] S256
  shapeCasts_S256_S1x256 : S256.ShapeCasts S1x256
  reduces_S1x256_S1 : S1x256.Reduces [1] S1
  shapeCasts_S1_S1x1 : S1.ShapeCasts S1x1
  inpos_S1x1_p0_0 : ∀ a, (![0, 0] : Fin 2 → Nat) a < S1x1.size a
  iota_S1x128_d1_w32 : S1x128.Iotas .tc 32 [1]
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  reducesTo_S64_S_d0 : S64.ReducesTo [0] S_
  h_S_ : 0 < S_.numel
  slices_S64x1x128_S64x1x1_0_0_1 : S64x1x128.Slices ![0, 0, 1] S64x1x1
  dot_S16x64x1024_S16x64x1024_S16x64x64_2_2_1_1_0_0_wf : DotDims.WF S16x64x1024 S16x64x1024 S16x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S256x64x1024.size a
  hwx0_0 : ∀ i : grid0.Coords, EltTy.bits .f32 = 32 ∨ (Rect.block (s := S256x64x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x64.size a ≤ S256x64x64.size a
  hwx0_1 : ∀ i : grid0.Coords, EltTy.bits .f32 = 32 ∨ (Rect.block (s := S256x64x64) S16x64x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S64x256x64.size a
  hwx1_0 : ∀ i : grid1.Coords, EltTy.bits .f32 = 32 ∨ (Rect.block (s := S64x256x64) S1x256x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S64x1x256.size a
  hwx1_2 : ∀ i : grid1.Coords, EltTy.bits .f32 = 32 ∨ (Rect.block (s := S64x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S64x1x64.size a
  hwx1_3 : ∀ i : grid1.Coords, EltTy.bits .f32 = 32 ∨ (Rect.block (s := S64x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S64x1x64.size a
  hwx1_4 : ∀ i : grid1.Coords, EltTy.bits .f32 = 32 ∨ (Rect.block (s := S64x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S64x1x128.size a
  hwx1_5 : ∀ i : grid1.Coords, EltTy.bits .f32 = 32 ∨ (Rect.block (s := S64x1x128) S1x1x128.size (cc1_transform_5 i) (hinb1_5 i)).WholeWords (EltTy.packing .f32)

variable [Facts₀]

def dot_S16x64x1024_S16x64x1024_S16x64x64_2_2_1_1_0_0 : DotDims S16x64x1024 S16x64x1024 S16x64x64 where
  lhsContracting := [2]
  rhsContracting := [2]
  lhsNonContracting := [1]
  rhsNonContracting := [1]
  lhsBatch := [0]
  rhsBatch := [0]
  wf := dot_S16x64x1024_S16x64x1024_S16x64x64_2_2_1_1_0_0_wf

abbrev win0_0 : Pipeline.Window sig grid0 :=
  Pipeline.Window.ofSpec (Memref.whole main_arg0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x64x1024 : Shape := ⟨3, ![256, 64, 1024]⟩
abbrev S256x64 : Shape := ⟨2, ![256, 64]⟩
abbrev S64x64 : Shape := ⟨2, ![64, 64]⟩
abbrev S_ : Shape := ⟨0, ![]⟩
abbrev S256x64x1 : Shape := ⟨3, ![256, 64, 1]⟩
abbrev S256x64x64 : Shape := ⟨3, ![256, 64, 64]⟩
abbrev S1x64x64 : Shape := ⟨3, ![1, 64, 64]⟩
abbrev S256x64x64x1 : Shape := ⟨4, ![256, 64, 64, 1]⟩
abbrev S256x64x1x64 : Shape := ⟨4, ![256, 64, 1, 64]⟩
abbrev S256x64x64x64 : Shape := ⟨4, ![256, 64, 64, 64]⟩
abbrev S256x64x1x1 : Shape := ⟨4, ![256, 64, 1, 1]⟩
abbrev S256x1x64x1 : Shape := ⟨4, ![256, 1, 64, 1]⟩
abbrev S256x1x1x64 : Shape := ⟨4, ![256, 1, 1, 64]⟩
abbrev S1x64x64x1 : Shape := ⟨4, ![1, 64, 64, 1]⟩
abbrev S1x64x1x64 : Shape := ⟨4, ![1, 64, 1, 64]⟩

abbrev nBuf : Space → Nat
  | .hbm => 62
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S256x64, .i32⟩
  | .hbm, ⟨2, _⟩ => ⟨S64x64, .f32⟩
  | .hbm, ⟨3, _⟩ => ⟨S64x64, .f32⟩
  | .hbm, ⟨4, _⟩ => ⟨S256x64, .f32⟩
  | .hbm, ⟨5, _⟩ => ⟨S256x64x1024, .f32⟩
  | .hbm, ⟨6, _⟩ => ⟨S_, .f32⟩
  | .hbm, ⟨7, _⟩ => ⟨S256x64, .f32⟩
  | .hbm, ⟨8, _⟩ => ⟨S256x64x1, .f32⟩
  | .hbm, ⟨9, _⟩ => ⟨S256x64x1, .f32⟩
  | .hbm, ⟨10, _⟩ => ⟨S_, .f32⟩
  | .hbm, ⟨11, _⟩ => ⟨S256x64x1, .f32⟩
  | .hbm, ⟨12, _⟩ => ⟨S256x64x1, .f32⟩
  | .hbm, ⟨13, _⟩ => ⟨S256x64x1024, .f32⟩
  | .hbm, ⟨14, _⟩ => ⟨S256x64x1024, .f32⟩
  | .hbm, ⟨15, _⟩ => ⟨S256x64x64, .f32⟩
  | .hbm, ⟨16, _⟩ => ⟨S_, .f32⟩
  | .hbm, ⟨17, _⟩ => ⟨S256x64x64, .f32⟩
  | .hbm, ⟨18, _⟩ => ⟨S256x64x64, .f32⟩
  | .hbm, ⟨19, _⟩ => ⟨S1x64x64, .f32⟩
  | .hbm, ⟨20, _⟩ => ⟨S_, .f32⟩
  | .hbm, ⟨21, _⟩ => ⟨S1x64x64, .f32⟩
  | .hbm, ⟨22, _⟩ => ⟨S1x64x64, .f32⟩
  | .hbm, ⟨23, _⟩ => ⟨S256x64x64, .f32⟩
  | .hbm, ⟨24, _⟩ => ⟨S256x64x64, .f32⟩
  | .hbm, ⟨25, _⟩ => ⟨S256x64x64x1, .f32⟩
  | .hbm, ⟨26, _⟩ => ⟨S256x64x1x64, .f32⟩
  | .hbm, ⟨27, _⟩ => ⟨S256x64x64x64, .f32⟩
  | .hbm, ⟨28, _⟩ => ⟨S256x64x64x64, .f32⟩
  | .hbm, ⟨29, _⟩ => ⟨S256x64x64x64, .f32⟩
  | .hbm, ⟨30, _⟩ => ⟨S256x64x1x1, .f32⟩
  | .hbm, ⟨31, _⟩ => ⟨S256x1x64x1, .f32⟩
  | .hbm, ⟨32, _⟩ => ⟨S256x64x64x1, .f32⟩
  | .hbm, ⟨33, _⟩ => ⟨S256x64x64x1, .f32⟩
  | .hbm, ⟨34, _⟩ => ⟨S256x64x64x1, .f32⟩
  | .hbm, ⟨35, _⟩ => ⟨S256x1x1x64, .f32⟩
  | .hbm, ⟨36, _⟩ => ⟨S256x64x64x64, .f32⟩
  | .hbm, ⟨37, _⟩ => ⟨S256x64x64x64, .f32⟩
  | .hbm, ⟨38, _⟩ => ⟨S256x64x64x64, .f32⟩
  | .hbm, ⟨39, _⟩ => ⟨S1x64x64x1, .f32⟩
  | .hbm, ⟨40, _⟩ => ⟨S256x64x64x64, .f32⟩
  | .hbm, ⟨41, _⟩ => ⟨S256x64x64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S1x64x1x64, .f32⟩
  | .hbm, ⟨46, _⟩ => ⟨S256x64x64x64, .f32⟩
  | .hbm, ⟨47, _⟩ => ⟨S256x64x64x64, .f32⟩
  | .hbm, ⟨48, _⟩ => ⟨S_, .f32⟩
  | .hbm, ⟨49, _⟩ => ⟨S256x64x64x64, .f32⟩
  | .hbm, ⟨50, _⟩ => ⟨S256x64x64x64, .f32⟩
  | .hbm, ⟨51, _⟩ => ⟨S256x64x64x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_cst : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  reducesTo_S256x64x1024_S256x64_d2 : S256x64x1024.ReducesTo [2] S256x64
  h_S_ : 0 < S_.numel
  bcast_S256x64_S256x64x1_0_1 : S256x64.BroadcastsInDim S256x64x1 (![0, 1] : Fin 2 → Fin S256x64x1.rank)
  bcast_S_S256x64x1 : S_.BroadcastsInDim S256x64x1 (![] : Fin 0 → Fin S256x64x1.rank)
  bcast_S256x64x1_S256x64x1024_0_1_2 : S256x64x1.BroadcastsInDim S256x64x1024 (![0, 1, 2] : Fin 3 → Fin S256x64x1024.rank)
  bcast_S_S256x64x64 : S_.BroadcastsInDim S256x64x64 (![] : Fin 0 → Fin S256x64x64.rank)
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S1x64x64_S256x64x64_0_1_2 : S1x64x64.BroadcastsInDim S256x64x64 (![0, 1, 2] : Fin 3 → Fin S256x64x64.rank)
  bcast_S256x64x64_S256x64x64x1_0_1_2 : S256x64x64.BroadcastsInDim S256x64x64x1 (![0, 1, 2] : Fin 3 → Fin S256x64x64x1.rank)
  bcast_S256x64x64_S256x64x1x64_0_1_3 : S256x64x64.BroadcastsInDim S256x64x1x64 (![0, 1, 3] : Fin 3 → Fin S256x64x1x64.rank)
  bcast_S256x64x64x1_S256x64x64x64_0_1_2_3 : S256x64x64x1.BroadcastsInDim S256x64x64x64 (![0, 1, 2, 3] : Fin 4 → Fin S256x64x64x64.rank)
  bcast_S256x64x1x64_S256x64x64x64_0_1_2_3 : S256x64x1x64.BroadcastsInDim S256x64x64x64 (![0, 1, 2, 3] : Fin 4 → Fin S256x64x64x64.rank)
  bcast_S256x64_S256x64x1x1_0_1 : S256x64.BroadcastsInDim S256x64x1x1 (![0, 1] : Fin 2 → Fin S256x64x1x1.rank)
  bcast_S256x64_S256x1x64x1_0_2 : S256x64.BroadcastsInDim S256x1x64x1 (![0, 2] : Fin 2 → Fin S256x1x64x1.rank)
  bcast_S256x64x1x1_S256x64x64x1_0_1_2_3 : S256x64x1x1.BroadcastsInDim S256x64x64x1 (![0, 1, 2, 3] : Fin 4 → Fin S256x64x64x1.rank)
  bcast_S256x1x64x1_S256x64x64x1_0_1_2_3 : S256x1x64x1.BroadcastsInDim S256x64x64x1 (![0, 1, 2, 3] : Fin 4 → Fin S256x64x64x1.rank)
  bcast_S256x64_S256x1x1x64_0_3 : S256x64.BroadcastsInDim S256x1x1x64 (![0, 3] : Fin 2 → Fin S256x1x1x64.rank)
  bcast_S256x1x1x64_S256x64x64x64_0_1_2_3 : S256x1x1x64.BroadcastsInDim S256x64x64x64 (![0, 1, 2, 3] : Fin 4 → Fin S256x64x64x64.rank)
  bcast_S64x64_S1x64x64x1_1_2 : S64x64.BroadcastsInDim S1x64x64x1 (![1, 2] : Fin 2 → Fin S1x64x64x1.rank)
  bcast_S1x64x64x1_S256x64x64x64_0_1_2_3 : S1x64x64x1.BroadcastsInDim S256x64x64x64 (![0, 1, 2, 3] : Fin 4 → Fin S256x64x64x64.rank)
  bcast_S_S64x64 : S_.BroadcastsInDim S64x64 (![] : Fin 0 → Fin S64x64.rank)
  bcast_S64x64_S1x64x1x64_1_3 : S64x64.BroadcastsInDim S1x64x1x64 (![1, 3] : Fin 2 → Fin S1x64x1x64.rank)
  bcast_S1x64x1x64_S256x64x64x64_0_1_2_3 : S1x64x1x64.BroadcastsInDim S256x64x64x64 (![0, 1, 2, 3] : Fin 4 → Fin S256x64x64x64.rank)
  bcast_S_S256x64x64x64 : S_.BroadcastsInDim S256x64x64x64 (![] : Fin 0 → Fin S256x64x64x64.rank)
  reducesTo_S256x64x64x64_S_d0_1_2_3 : S256x64x64x64.ReducesTo [0, 1, 2, 3] S_
  dot_S256x64x1024_S256x64x1024_S256x64x64_2_2_1_1_0_0_wf : DotDims.WF S256x64x1024 S256x64x1024 S256x64x64 [2] [2] [1] [1] [0] [0]

variable [Facts₀]

def dot_S256x64x1024_S256x64x1024_S256x64x64_2_2_1_1_0_0 : DotDims S256x64x1024 S256x64x1024 S256x64x64 where
  lhsContracting := [2]
  rhsContracting := [2]
  lhsNonContracting := [1]
  rhsNonContracting := [1]
  lhsBatch := [0]
  rhsBatch := [0]
  wf := dot_S256x64x1024_S256x64x1024_S256x64x64_2_2_1_1_0_0_wf

class Facts : Prop extends Facts₀ where

variable [Facts]
-- ==== Proof.LibSumIdx.lean ====
/-
  Sums over the index set of a rank-3 or rank-4 shape as iterated sums over the coordinates.

  An index of a shape of rank r is the tuple of its r coordinates, so the index set is the product of
  the coordinate ranges and a sum over it (in any commutative monoid) is the iterated sum, outermost
  axis first.  The rank-2 case is the library's; these are the next two ranks, built the same way.
-/
import Idealize.ShloMosaic.Lib.ValueIdx

open scoped BigOperators

namespace Idealize.ShloMosaic.ValueIdx

open Idealize.ShloMosaic

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.Spec.lean ====
/-
  The function both programs compute, over the extended reals.

  Inputs: features x[b, l, d] (256 × 64 × 1024), labels lab[b, l] (256 × 64, already as reals), and two
  constant 64 × 64 tables: anc[a, p] (1 where p is an ancestor of a) and ld[a, n] (the level difference).

  * Each feature row is divided by max(√(Σ_d x²), ε): `unitRow`.
  * The distance matrix is D[b, l, m] = 1 − Σ_d u[b, l, d] · u[b, m, d]: `dist`.
  * For a sample b, an anchor a, a positive p and a negative n the hinge is
    max(D[b,a,p] − (D[b,a,n] − 1·ld[a,n]), 0) and the triplet's weight is the product of the three labels with
    anc[a,p] and 1 − anc[a,n].
  * The loss is the sum of hinge · weight over all (b, a, p, n), the count the sum of the weights, and the
    result is loss / max(count, 1) when count > 0 and loss otherwise.

  The two programs group the weight's product differently and sum in different orders (one anchor at a
  time and n innermost, against one sum over the whole four-dimensional index set).  Products and sums
  of extended reals are commutative and associative, so the two readings agree; no finiteness is used.
-/
import Idealize.ShloMosaic.PureOps.Ideal
import Idealize.ShloMosaic.PureOps.Ideal.Laws
import Idealize.ShloMosaic.Lib.ValueIdx
import proofs.«131965_j7928509628770_1_alg».proof.Proof.LibSumIdx

open scoped BigOperators

noncomputable section

namespace Cert.Spec

open Idealize.ShloMosaic Idealize.ShloMosaic.ValueIdx

/-- The three float literals of both programs, kept as their words. -/
abbrev eps : EReal := Ideal.ofBits .f32 0x2B8CBCCC#32
abbrev one : EReal := Ideal.ofBits .f32 0x3F800000#32
abbrev zero : EReal := Ideal.ofBits .f32 0x00000000#32

abbrev Feat := (⟨3, ![256, 64, 1024]⟩ : Shape).Idx → EReal
abbrev Dist := (⟨3, ![256, 64, 64]⟩ : Shape).Idx → EReal
abbrev Lab := (⟨2, ![256, 64]⟩ : Shape).Idx → EReal
abbrev Tab := (⟨2, ![64, 64]⟩ : Shape).Idx → EReal

/-- The squared length of feature row (b, l). -/
def sumsq (x : Feat) (b : Fin 256) (l : Fin 64) : EReal := ∑ k : Fin 1024, x (ix3 b l k) * x (ix3 b l k)

/-- Row (b, l) divided by its length, the length kept away from zero by ε. -/
def unitRow (x : Feat) (b : Fin 256) (l : Fin 64) (d : Fin 1024) : EReal :=
  Ideal.div (x (ix3 b l d)) (max (Ideal.sqrt (sumsq x b l)) eps)

/-- The cosine distance between rows l and m of sample b. -/
def dist (x : Feat) : Dist := fun j =>
  one - ∑ k : Fin 1024, unitRow x (j 0) (j 1) k * unitRow x (j 0) (j 2) k

/-- The hinge of the triplet (a, p, n) in sample b. -/
def hinge (D : Dist) (ld : Tab) (b : Fin 256) (a p n : Fin 64) : EReal :=
  max (D (ix3 b a p) - (D (ix3 b a n) - one * ld (ix2 a n))) zero

/-- The triplet's weight, grouped as the kernel multiplies it. -/
def weightK (lab : Lab) (anc : Tab) (b : Fin 256) (a p n : Fin 64) : EReal :=
  (lab (ix2 b a) * (lab (ix2 b p) * lab (ix2 b n))) * (anc (ix2 a p) * (one - anc (ix2 a n)))

/-- The triplet's weight, grouped as the reference multiplies it. -/
def weightR (lab : Lab) (anc : Tab) (b : Fin 256) (a p n : Fin 64) : EReal :=
  (((lab (ix2 b a) * lab (ix2 b p)) * lab (ix2 b n)) * anc (ix2 a p)) * (one - anc (ix2 a n))

theorem weightR_eq_weightK (lab : Lab) (anc : Tab) (b : Fin 256) (a p n : Fin 64) :
    weightR lab anc b a p n = weightK lab anc b a p n := by
  unfold weightR weightK
  simp only [mul_assoc]

/-- Anchor a's share of the loss: samples outermost, negatives innermost. -/
def lossA (D : Dist) (lab : Lab) (anc ld : Tab) (a : Fin 64) : EReal :=
  ∑ b : Fin 256, ∑ p : Fin 64, ∑ n : Fin 64, hinge D ld b a p n * weightK lab anc b a p n

/-- Anchor a's share of the count. -/
def countA (lab : Lab) (anc : Tab) (a : Fin 64) : EReal :=
  ∑ b : Fin 256, ∑ p : Fin 64, ∑ n : Fin 64, weightK lab anc b a p n

/-- The loss, one anchor at a time. -/
def lossK (D : Dist) (lab : Lab) (anc ld : Tab) : EReal := ∑ a : Fin 64, lossA D lab anc ld a

/-- The count, one anchor at a time. -/
def countK (lab : Lab) (anc : Tab) : EReal := ∑ a : Fin 64, countA lab anc a

/-- The loss as one sum over the four-dimensional index set (b, a, p, n). -/
def lossR (D : Dist) (lab : Lab) (anc ld : Tab) : EReal :=
  ∑ i : (⟨4, ![256, 64, 64, 64]⟩ : Shape).Idx, hinge D ld (i 0) (i 1) (i 2) (i 3) * weightR lab anc (i 0) (i 1) (i 2) (i 3)

/-- The count as one sum over the four-dimensional index set. -/
def countR (lab : Lab) (anc : Tab) : EReal :=
  ∑ i : (⟨4, ![256, 64, 64, 64]⟩ : Shape).Idx, weightR lab anc (i 0) (i 1) (i 2) (i 3)

/-- The one sum is the iterated one with the anchor outermost: split the index set into its coordinates and
    exchange the two outer sums. -/
theorem lossR_eq_lossK (D : Dist) (lab : Lab) (anc ld : Tab) : lossR D lab anc ld = lossK D lab anc ld := by
  unfold lossR lossK lossA
  rw [sum_idx4, Finset.sum_comm]
  refine Finset.sum_congr rfl fun a _ => Finset.sum_congr rfl fun b _ => Finset.sum_congr rfl fun p _ =>
    Finset.sum_congr rfl fun n _ => ?_
  show hinge D ld b a p n * weightR lab anc b a p n = _
  rw [weightR_eq_weightK]

theorem countR_eq_countK (lab : Lab) (anc : Tab) : countR lab anc = countK lab anc := by
  unfold countR countK countA
  rw [sum_idx4, Finset.sum_comm]
  refine Finset.sum_congr rfl fun a _ => Finset.sum_congr rfl fun b _ => Finset.sum_congr rfl fun p _ =>
    Finset.sum_congr rfl fun n _ => ?_
  show weightR lab anc b a p n = _
  rw [weightR_eq_weightK]

/-! ## What the second launch leaves, from the arrays as it finds them

The second launch reads the distance matrix with the anchor axis outermost (`Dt[a, b, m]`), the labels
(`lab[b, l]`), the labels again with the anchor axis outermost and a unit axis (`labT[a, 0, b]`) and the two
tables with a unit axis between their two axes (`anc3[a, 0, p]`, `ld3[a, 0, n]`).  At anchor a it writes
row a of a 64 × 1 × 128 array: the anchor's loss in lane 0, its count in lane 1, zero elsewhere. -/

abbrev DistT := (⟨3, ![64, 256, 64]⟩ : Shape).Idx → EReal
abbrev LabT := (⟨3, ![64, 1, 256]⟩ : Shape).Idx → EReal
abbrev Tab3 := (⟨3, ![64, 1, 64]⟩ : Shape).Idx → EReal
abbrev Rows := (⟨3, ![64, 1, 128]⟩ : Shape).Idx → EReal

/-- Anchor a's loss from the arrays as the second launch finds them. -/
def lossRow (Dt : DistT) (lab : Lab) (labT : LabT) (anc3 ld3 : Tab3) (a : Fin 64) : EReal :=
  ∑ b : Fin 256, ∑ p : Fin 64, ∑ n : Fin 64,
    max (Dt (ix3 a b p) - (Dt (ix3 a b n) - one * ld3 (ix3 a 0 n))) zero
      * ((labT (ix3 a 0 b) * (lab (ix2 b p) * lab (ix2 b n))) * (anc3 (ix3 a 0 p) * (one - anc3 (ix3 a 0 n))))

/-- Anchor a's count from the arrays as the second launch finds them. -/
def countRow (lab : Lab) (labT : LabT) (anc3 : Tab3) (a : Fin 64) : EReal :=
  ∑ b : Fin 256, ∑ p : Fin 64, ∑ n : Fin 64,
    (labT (ix3 a 0 b) * (lab (ix2 b p) * lab (ix2 b n))) * (anc3 (ix3 a 0 p) * (one - anc3 (ix3 a 0 n)))

/-- The array the second launch leaves: loss in lane 0, count in lane 1, zero in the other lanes. -/
def rows (Dt : DistT) (lab : Lab) (labT : LabT) (anc3 ld3 : Tab3) : Rows := fun j =>
  if (j 2).val = 0 then lossRow Dt lab labT anc3 ld3 (j 0)
  else if (j 2).val = 1 then countRow lab labT anc3 (j 0)
  else zero

/-- The closing step both programs share: loss / max(count, 1) where count > 0, else loss. -/
def closing (loss count : FVec Ideal ⟨0, ![]⟩ .f32) : FVec Ideal ⟨0, ![]⟩ .f32 :=
  select (cmpf .ogt count (constant ⟨0, ![]⟩ .f32 0x00000000#32))
    (Host.divf loss (maximumf count (constant ⟨0, ![]⟩ .f32 0x3F800000#32))) loss

end Cert.Spec

end
-- ==== Proof.Tables.lean ====
/-
  The two constant tables are the same words in both programs.

  Each program prints the ancestor table and the level-difference table as its own 4096-word literal; the
  kernel's and the reference's copies agree word for word, by evaluating both at every index.
-/
import proofs.«131965_j7928509628770_1_alg».proof.KernelIdeal
import proofs.«131965_j7928509628770_1_alg».proof.ReferenceIdeal

namespace Cert.Tables

/-- The ancestor table: the kernel's words are the reference's. -/
theorem anc_words : ∀ i : Fin 4096, Cert.KernelIdeal.lit0 i = Cert.ReferenceIdeal.lit0 i := by
  decide +kernel

/-- The level-difference table: the kernel's words are the reference's. -/
theorem ld_words : ∀ i : Fin 4096, Cert.KernelIdeal.lit1 i = Cert.ReferenceIdeal.lit1 i := by
  decide +kernel

end Cert.Tables
-- ==== Proof.Region0.lean ====
/-
  The first launch: what its output array holds when it ends.
-/
import proofs.«131965_j7928509628770_1_alg».proof.Proof.Gen.KernelIdeal.Frame
import proofs.«131965_j7928509628770_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic on one block -/

/-- The squared length of row (p, l) of a block. -/
def blkSumsq (x0 : FVec Ideal S16x64x1024 .f32) (p : Fin 16) (l : Fin 64) : EReal :=
  ∑ k : Fin 1024, x0 (ix3 p l k) * x0 (ix3 p l k)

/-- Row (p, l) of a block divided by its length, the length kept away from zero by ε. -/
def blkUnit (x0 : FVec Ideal S16x64x1024 .f32) (p : Fin 16) (l : Fin 64) (d : Fin 1024) : EReal :=
  Ideal.div (x0 (ix3 p l d)) (max (Ideal.sqrt (blkSumsq x0 p l)) Cert.Spec.eps)

/-- The index over (p, l) with lane k put back on the summed axis. -/
theorem lift_ix2 (p : Fin 16) (l : Fin 64) (k : Fin 1024) :
    reduces_S16x64x1024_S16x64.lift (ix2 p l) k = ix3 p l k := by
  funext a; apply Fin.ext
  match a with
  | ⟨0, _⟩ => rfl
  | ⟨1, _⟩ => rfl
  | ⟨2, _⟩ => rfl

/-- The lane sum of the squares at (p, l). -/
theorem laneSum_apply (x0 : FVec Ideal S16x64x1024 .f32) (hacc : (0x00000000#32 : BitVec 32) = 0x00000000#32)
    (p : Fin 16) (l : Fin 64) :
    multiReduction (F := Ideal) .add [2] S16x64 (mulf x0 x0) 0x00000000#32 reduces_S16x64x1024_S16x64 (.inl rfl) hacc (ix2 p l)
      = blkSumsq x0 p l := by
  refine (Ideal.multiReduction_add_single (mulf x0 x0) 0x00000000#32 reduces_S16x64x1024_S16x64 (.inl rfl) hacc (ix2 p l)).trans ?_
  show ∑ k : Fin 1024, mulf x0 x0 (reduces_S16x64x1024_S16x64.lift (ix2 p l) k) = ∑ k : Fin 1024, x0 (ix3 p l k) * x0 (ix3 p l k)
  refine Finset.sum_congr rfl fun k _ => ?_
  rw [lift_ix2, mulf_apply]

/-- A 16 × 64 array seen as 16 × 64 × 1 reads, at (p, l, 0), the array at (p, l). -/
theorem keepLane_apply {α : Type} (v : S16x64.Idx → α) (p : Fin 16) (l : Fin 64) (u : Fin 1) :
    shapeCast S16x64x1 v shapeCasts_S16x64_S16x64x1 (ix3 p l u) = v (ix2 p l) := by
  refine shapeCast_apply v _ (ix3 p l u) (ix2 p l) ?_
  rw [Shape.rowMajor_val_two, Shape.rowMajor_val_three]
  show p.val * 64 + l.val = (p.val * 64 + l.val) * 1 + u.val
  omega

/-- A 16 × 64 × 1 array spread along the lanes reads, at (p, l, d), the array at (p, l, 0). -/
theorem spreadLane_apply {α : Type} (v : S16x64x1.Idx → α) (p : Fin 16) (l : Fin 64) (d : Fin 1024) :
    broadcastTo S16x64x1024 v broadcasts_S16x64x1_S16x64x1024 (ix3 p l d) = v (ix3 p l 0) := by
  refine broadcastTo_apply v _ (ix3 p l d) (ix3 p l 0) ?_
  intro a
  match a with
  | ⟨0, _⟩ => exact (if_neg (show ¬((16 : ℕ) = 1) by decide)).symm
  | ⟨1, _⟩ => exact (if_neg (show ¬((64 : ℕ) = 1) by decide)).symm
  | ⟨2, _⟩ => exact (if_pos (show (1 : ℕ) = 1 from rfl)).symm

/-- The block with every row divided by its guarded length. -/
def normed (x0 : FVec Ideal S16x64x1024 .f32) : FVec Ideal S16x64x1024 .f32 :=
  divf x0 (broadcastTo S16x64x1024
    (maximumf
      (sqrt (shapeCast S16x64x1
        (multiReduction (F := Ideal) .add [2] S16x64 (mulf x0 x0) 0x00000000#32 reduces_S16x64x1024_S16x64 (.inl rfl) rfl)
        shapeCasts_S16x64_S16x64x1))
      (broadcast S16x64x1 (Scalar.ofBits (F := Ideal) .f32 0x2B8CBCCC#32)))
    broadcasts_S16x64x1_S16x64x1024)

theorem normed_apply (x0 : FVec Ideal S16x64x1024 .f32) (p : Fin 16) (l : Fin 64) (d : Fin 1024) :
    normed x0 (ix3 p l d) = blkUnit x0 p l d := by
  unfold normed blkUnit
  rw [divf_apply, spreadLane_apply, maximumf_apply, broadcast_apply]
  show Ideal.div (x0 (ix3 p l d)) (max (Ideal.sqrt (shapeCast S16x64x1 _ shapeCasts_S16x64_S16x64x1 (ix3 p l 0))) Cert.Spec.eps) = _
  rw [keepLane_apply, laneSum_apply]

/-! ## The batched product of the block with itself -/

/-- The left operand's index: sample and row from the output index, lane from the contraction index. -/
theorem lhs_axis0 (i : S16x64x64.Idx) (q : dot_S16x64x1024_S16x64x1024_S16x64x64_2_2_1_1_0_0.contr.Idx) :
    (dot_S16x64x1024_S16x64x1024_S16x64x64_2_2_1_1_0_0.lhsIdx i q 0).val = (i 0).val := by
  unfold DotDims.lhsIdx
  rw [dif_pos (show (0 : Fin S16x64x1024.rank) ∈ dot_S16x64x1024_S16x64x1024_S16x64x64_2_2_1_1_0_0.lhsBatch by decide)]
  rfl

theorem lhs_axis1 (i : S16x64x64.Idx) (q : dot_S16x64x1024_S16x64x1024_S16x64x64_2_2_1_1_0_0.contr.Idx) :
    (dot_S16x64x1024_S16x64x1024_S16x64x64_2_2_1_1_0_0.lhsIdx i q 1).val = (i 1).val := by
  unfold DotDims.lhsIdx
  rw [dif_neg (show ¬(1 : Fin S16x64x1024.rank) ∈ dot_S16x64x1024_S16x64x1024_S16x64x64_2_2_1_1_0_0.lhsBatch by decide),
    dif_pos (show (1 : Fin S16x64x1024.rank) ∈ dot_S16x64x1024_S16x64x1024_S16x64x64_2_2_1_1_0_0.lhsNonContracting by decide)]
  rfl

theorem lhs_axis2 (i : S16x64x64.Idx) (q : dot_S16x64x1024_S16x64x1024_S16x64x64_2_2_1_1_0_0.contr.Idx) :
    (dot_S16x64x1024_S16x64x1024_S16x64x64_2_2_1_1_0_0.lhsIdx i q 2).val = (q ⟨0, by decide⟩).val :=
  dot_S16x64x1024_S16x64x1024_S16x64x64_2_2_1_1_0_0.lhsIdx_val_of_single rfl i q

/-- The right operand's index: sample from the output index's axis 0, row from its axis 2, lane from the contraction index. -/
theorem rhs_axis0 (i : S16x64x64.Idx) (q : dot_S16x64x1024_S16x64x1024_S16x64x64_2_2_1_1_0_0.contr.Idx) :
    (dot_S16x64x1024_S16x64x1024_S16x64x64_2_2_1_1_0_0.rhsIdx i q 0).val = (i 0).val := by
  unfold DotDims.rhsIdx
  rw [dif_pos (show (0 : Fin S16x64x1024.rank) ∈ dot_S16x64x1024_S16x64x1024_S16x64x64_2_2_1_1_0_0.rhsBatch by decide)]
  rfl

theorem rhs_axis1 (i : S16x64x64.Idx) (q : dot_S16x64x1024_S16x64x1024_S16x64x64_2_2_1_1_0_0.contr.Idx) :
    (dot_S16x64x1024_S16x64x1024_S16x64x64_2_2_1_1_0_0.rhsIdx i q 1).val = (i 2).val := by
  unfold DotDims.rhsIdx
  rw [dif_neg (show ¬(1 : Fin S16x64x1024.rank) ∈ dot_S16x64x1024_S16x64x1024_S16x64x64_2_2_1_1_0_0.rhsBatch by decide),
    dif_pos (show (1 : Fin S16x64x1024.rank) ∈ dot_S16x64x1024_S16x64x1024_S16x64x64_2_2_1_1_0_0.rhsNonContracting by decide)]
  rfl

theorem rhs_axis2 (i : S16x64x64.Idx) (q : dot_S16x64x1024_S16x64x1024_S16x64x64_2_2_1_1_0_0.contr.Idx) :
    (dot_S16x64x1024_S16x64x1024_S16x64x64_2_2_1_1_0_0.rhsIdx i q 2).val = (q ⟨0, by decide⟩).val :=
  dot_S16x64x1024_S16x64x1024_S16x64x64_2_2_1_1_0_0.rhsIdx_val_of_single rfl i q

/-- The product into the zero accumulator, at (p, l, m): the sum over the lanes of row l times row m of sample p. -/
theorem gram_apply {φ : FTy} (v : FVec Ideal S16x64x1024 φ) (p : Fin 16) (l m : Fin 64) :
    matmul dot_S16x64x1024_S16x64x1024_S16x64x64_2_2_1_1_0_0 none v v (constant (F := Ideal) S16x64x64 .f32 0x00000000#32) (ix3 p l m)
      = ∑ k : Fin 1024, v (ix3 p l k) * v (ix3 p m k) := by
  show FloatOps.matmul dot_S16x64x1024_S16x64x1024_S16x64x64_2_2_1_1_0_0 none v v (constant (F := Ideal) S16x64x64 .f32 0x00000000#32) (ix3 p l m) = _
  rw [Ideal.matmul_constant_zero_apply, ← Equiv.sum_comp (contrEquiv1 dot_S16x64x1024_S16x64x1024_S16x64x64_2_2_1_1_0_0 1024 rfl rfl).symm]
  refine Finset.sum_congr rfl fun k _ => ?_
  have hk := contrEquiv1_symm_val dot_S16x64x1024_S16x64x1024_S16x64x64_2_2_1_1_0_0 1024 rfl rfl k
  have el : dot_S16x64x1024_S16x64x1024_S16x64x64_2_2_1_1_0_0.lhsIdx (ix3 p l m) ((contrEquiv1 dot_S16x64x1024_S16x64x1024_S16x64x64_2_2_1_1_0_0 1024 rfl rfl).symm k) = ix3 p l k :=
    funext fun a => Fin.ext (by
      match a with
      | ⟨0, _⟩ => exact lhs_axis0 _ _
      | ⟨1, _⟩ => exact lhs_axis1 _ _
      | ⟨2, _⟩ => exact (lhs_axis2 _ _).trans hk)
  have er : dot_S16x64x1024_S16x64x1024_S16x64x64_2_2_1_1_0_0.rhsIdx (ix3 p l m) ((contrEquiv1 dot_S16x64x1024_S16x64x1024_S16x64x64_2_2_1_1_0_0 1024 rfl rfl).symm k) = ix3 p m k :=
    funext fun a => Fin.ext (by
      match a with
      | ⟨0, _⟩ => exact rhs_axis0 _ _
      | ⟨1, _⟩ => exact rhs_axis1 _ _
      | ⟨2, _⟩ => exact (rhs_axis2 _ _).trans hk)
  rw [el, er]

/-! ## The payload at an index -/

/-- The payload is one minus the product of the normed block with itself. -/
theorem pay_eq (x0 : FVec Ideal S16x64x1024 .f32) :
    k0_pay1 (F := Ideal) x0
      = subf (broadcast S16x64x64 (Scalar.ofBits (F := Ideal) .f32 0x3F800000#32))
          (matmul dot_S16x64x1024_S16x64x1024_S16x64x64_2_2_1_1_0_0 none (truncf .bf16 (normed x0) bitsLt_bf16_f32) (truncf .bf16 (normed x0) bitsLt_bf16_f32)
            (constant (F := Ideal) S16x64x64 .f32 0x00000000#32)) := rfl

/-- At (p, l, m) the payload is one minus the sum over the lanes of the products of unit rows l and m of sample p. -/
theorem pay_apply (x0 : FVec Ideal S16x64x1024 .f32) (p : Fin 16) (l m : Fin 64) :
    k0_pay1 (F := Ideal) x0 (ix3 p l m) = Cert.Spec.one - ∑ k : Fin 1024, blkUnit x0 p l k * blkUnit x0 p m k := by
  rw [pay_eq, subf_apply, broadcast_apply, gram_apply]
  show Cert.Spec.one - _ = _
  refine congrArg (Cert.Spec.one - ·) (Finset.sum_congr rfl fun k _ => ?_)
  rw [truncf_apply, truncf_apply, normed_apply, normed_apply]

/-! ## From the blocks to the array -/

theorem origin3 : (![0, 0, 0] : Fin 3 → Nat) = fun _ => 0 := funext fun a => by fin_cases a <;> rfl

/-- A unit row of a block is the unit row of the array the block's rows are read from. -/
theorem blkUnit_of_rows (x0 : FVec Ideal S16x64x1024 .f32) (X : Cert.Spec.Feat) (p : Fin 16) (b : Fin 256) (l l' : Fin 64)
    (h : ∀ k : Fin 1024, x0 (ix3 p l k) = X (ix3 b l' k)) (d : Fin 1024) :
    blkUnit x0 p l d = Cert.Spec.unitRow X b l' d := by
  unfold blkUnit Cert.Spec.unitRow blkSumsq Cert.Spec.sumsq
  simp only [h]

/-- The payload at any index of the block, in the index's own coordinates. -/
theorem pay_at (x0 : FVec Ideal S16x64x1024 .f32) (j : S16x64x64.Idx) :
    k0_pay1 (F := Ideal) x0 j = Cert.Spec.one - ∑ k : Fin 1024, blkUnit x0 (j 0) (j 1) k * blkUnit x0 (j 0) (j 2) k := by
  obtain ⟨p, l, m, rfl⟩ : ∃ (p : Fin 16) (l m : Fin 64), j = ix3 p l m := ⟨j 0, j 1, j 2, eq_ix3 j⟩
  exact pay_apply x0 p l m

/-- The two windows' index maps, decided over the grid: block t of either window starts at sample 16 t and at row and lane 0. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Row l of sample p of the input block at point t is row l' of the sample the output block's index names, when l' = l. -/
theorem in_rows (c : Dev nD) (t : Fin cfg0.N) (j : S16x64x64.Idx) (l l' : Fin 64) (hl : l'.val = l.val) (k : Fin 1024) :
    (iblk0 V c 0 t : FVec Ideal S16x64x1024 .f32) (ix3 (j 0) l k)
      = (V c main_arg0 : Cert.Spec.Feat) (ix3 ((((cfg0.win 1).blk t).view.emb j) 0) l' k) := by
  obtain ⟨e0, e1, e2, e3, e4, e5⟩ := idx_facts t
  show V c main_arg0 (((cfg0.win 0).blk t).view.emb (ix3 (j 0) l k)) = V c main_arg0 _
  refine congrArg (V c main_arg0) (funext fun a => Fin.ext ?_)
  match a with
  | ⟨0, _⟩ =>
    show win0_0.index t (0 : Fin 3) * 16 + 1 * (j 0).val = win0_1.index t (0 : Fin 3) * 16 + 1 * (j 0).val
    omega
  | ⟨1, _⟩ =>
    show win0_0.index t (1 : Fin 3) * 64 + 1 * l.val = l'.val
    omega
  | ⟨2, _⟩ =>
    show win0_0.index t (2 : Fin 3) * 1024 + 1 * k.val = k.val
    omega

/-- What the body leaves at point t, at an index of the block, is the distance matrix at that index of the array. -/
theorem block_eq (c : Dev nD) (t : Fin cfg0.N) (j : S16x64x64.Idx) :
    k0_pay1 (F := Ideal) (iblk0 V c 0 t) j = Cert.Spec.dist (V c main_arg0) (((cfg0.win 1).blk t).view.emb j) := by
  obtain ⟨e0, e1, e2, e3, e4, e5⟩ := idx_facts t
  refine (pay_at _ j).trans ?_
  show _ = Cert.Spec.one - ∑ k : Fin 1024,
      Cert.Spec.unitRow (V c main_arg0) ((((cfg0.win 1).blk t).view.emb j) 0) ((((cfg0.win 1).blk t).view.emb j) 1) k
        * Cert.Spec.unitRow (V c main_arg0) ((((cfg0.win 1).blk t).view.emb j) 0) ((((cfg0.win 1).blk t).view.emb j) 2) k
  have h1 : ((((cfg0.win 1).blk t).view.emb j) 1).val = (j 1).val := by
    show win0_1.index t (1 : Fin 3) * 64 + 1 * (j 1).val = (j 1).val
    omega
  have h2 : ((((cfg0.win 1).blk t).view.emb j) 2).val = (j 2).val := by
    show win0_1.index t (2 : Fin 3) * 64 + 1 * (j 2).val = (j 2).val
    omega
  refine congrArg (Cert.Spec.one - ·) (Finset.sum_congr rfl fun k _ => ?_)
  rw [blkUnit_of_rows _ (V c main_arg0) (j 0) ((((cfg0.win 1).blk t).view.emb j) 0) (j 1) ((((cfg0.win 1).blk t).view.emb j) 1)
      (in_rows V c t j _ _ h1) k,
    blkUnit_of_rows _ (V c main_arg0) (j 0) ((((cfg0.win 1).blk t).view.emb j) 0) (j 2) ((((cfg0.win 1).blk t).view.emb j) 2)
      (in_rows V c t j _ _ h2) k]

/-- What point t writes back is block t of the distance matrix of the features the launch was entered with. -/
theorem flushed_eq (c : Dev nD) (t : Fin cfg0.N) :
    (dat0 (F := Ideal) V c).flushed 1 t = ((cfg0.win 1).blk t).view.read (Elt Ideal) (Cert.Spec.dist (V c main_arg0)) := by
  show (cfg0.win 1).cut (grid0.coords t) ((dat0 V c).after 1 t) = _
  rw [after0_1]
  unfold out0_1
  rw [View.canon_unit_zero origin3]
  simp only [View.ld_unit_zero (S := S16x64x1024) origin3]
  funext j
  exact block_eq V c t j

/-- An index of the output array is in point t's block iff each coordinate is in the block's range on its axis. -/
theorem mem_blk (t : Fin cfg0.N) (i : S256x64x64.Idx) :
    i ∈ ((cfg0.win 1).blk t).view.set
      ↔ ∀ a : Fin 3, win0_1.index t a * S16x64x64.size a ≤ (i a).val ∧ (i a).val < win0_1.index t a * S16x64x64.size a + S16x64x64.size a := by
  show i ∈ ((View.whole main_v2).slice (win0_1.rect t)).set ↔ _
  rw [View.set_slice_whole, Rect.mem_set_unit]
  exact Iff.rfl

/-- Every index of the output array is in the block of the point its sample falls in: sample b is written at point b / 16. -/
theorem covered (i : S256x64x64.Idx) :
    ∃ t : Fin cfg0.N, (cfg0.win 1).flush t = true ∧ i ∈ ((cfg0.win 1).blk t).view.set := by
  have hi0 : (i 0).val < 256 := (i 0).isLt
  have hi1 : (i 1).val < 64 := (i 1).isLt
  have hi2 : (i 2).val < 64 := (i 2).isLt
  have hN : grid0.N = 16 := N_0
  let t : Fin cfg0.N := ⟨(i 0).val / 16, by show (i 0).val / 16 < grid0.N; omega⟩
  obtain ⟨e0, e1, e2, e3, e4, e5⟩ := idx_facts t
  have ht : t.val = (i 0).val / 16 := rfl
  refine ⟨t, flush0_1 t, ?_⟩
  rw [mem_blk]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 64 ≤ (i 1).val ∧ (i 1).val < win0_1.index t (1 : Fin 3) * 64 + 64
    omega
  | ⟨2, _⟩ =>
    show win0_1.index t (2 : Fin 3) * 64 ≤ (i 2).val ∧ (i 2).val < win0_1.index t (2 : Fin 3) * 64 + 64
    omega

/-- The first launch's output array ends as the distance matrix of the feature array it was entered with. -/
theorem final0 (c : Dev nD) : (dat0 (F := Ideal) V c).arrAt 1 cfg0.N = Cert.Spec.dist (V c main_arg0) :=
  (dat0 (F := Ideal) V c).arrAt_eq_of_cover 1 (Cert.Spec.dist (V c main_arg0)) (fun t _ => flushed_eq V c t) covered

end Cert.KernelIdeal.Region0

end
-- ==== Proof.Region1Pay.lean ====
/-
  The second launch's body as a pure function of its five loaded blocks, read at a lane.
-/
import proofs.«131965_j7928509628770_1_alg».proof.Proof.Gen.KernelIdeal.Skeleton
import proofs.«131965_j7928509628770_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1Pay

open Cert.KernelIdeal Cert.KernelIdeal.Gen
open Idealize.ShloMosaic Idealize.ShloMosaic.ValueIdx

/-! ## Reshapes and broadcasts of this kernel's shapes, read at an index given by coordinates -/

section Layout
variable {α : Type}

/-- A `[1, 1, a]` row viewed as a vector: entry `i` is the row's entry `(0, 0, i)`. -/
theorem cast_11a_a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A matrix given a trailing unit axis. -/
theorem cast_ab_ab1 {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A matrix given a unit axis between its two axes. -/
theorem cast_ab_a1b {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector as a `[1, a, 1]` column block. -/
theorem cast_a_1a1 {a : ℕ} (x : (⟨1, ![a]⟩ : Shape).Idx → α) (h : (⟨1, ![a]⟩ : Shape).ShapeCasts ⟨3, ![1, a, 1]⟩)
    (u : Fin 1) (i : Fin a) (w : Fin 1) : shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw]; omega)

/-- A vector as a `[1, 1, a]` row block. -/
theorem cast_a_11a {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]; omega)

/-- A vector as an `[a, 1, 1]` block. -/
theorem cast_a_a11 {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

/-- A coordinate is `0` when its axis has extent one, and itself otherwise. -/
theorem val_if_unit {n : ℕ} (i : Fin n) : i.val = if n = 1 then 0 else i.val := by
  split
  · have := i.isLt; omega
  · rfl

/-- A trailing unit axis broadcast: every entry along it is the one entry. -/
theorem bcast_ab1_abc {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => exact val_if_unit i
  | ⟨1, _⟩ => exact val_if_unit j
  | ⟨2, _⟩ => rfl

/-- A middle unit axis broadcast. -/
theorem bcast_a1c_abc {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => exact val_if_unit i
  | ⟨1, _⟩ => rfl
  | ⟨2, _⟩ => exact val_if_unit k

/-- Two trailing unit axes broadcast. -/
theorem bcast_a11_abc {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ => exact val_if_unit i
  | ⟨1, _⟩ => rfl
  | ⟨2, _⟩ => rfl

/-- A leading unit axis broadcast. -/
theorem bcast_1bc_abc {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => exact val_if_unit j
  | ⟨2, _⟩ => exact val_if_unit k

end Layout

/-! ## The margin and the weight at one triple -/

/-- The margin before clipping at sample b, positive p, negative n. -/
theorem margin_apply (x0 : Vec Ideal S1x256x64 .f32) (x4 : Vec Ideal S1x1x64 .f32) (b : Fin 256) (p n : Fin 64) :
    k1_pay2 (F := Ideal) x0 x4 (ix3 b p n)
      = x0 (ix3 (0 : Fin 1) b p) - (x0 (ix3 (0 : Fin 1) b n) - Cert.Spec.one * x4 (ix3 (0 : Fin 1) (0 : Fin 1) n)) := by
  unfold k1_pay2
  simp only [shapeCast_self, subf_apply, mulf_apply, broadcast_apply, bcast_ab1_abc, bcast_a1c_abc, cast_ab_ab1, cast_ab_a1b,
    shapeCast_1ab_ab_apply, broadcastTo_1b_ab_apply, shapeCast_a_1a_apply, cast_11a_a]
  rfl

/-- The weight of the triple (b, p, n): the three labels times the two table entries. -/
theorem weight_apply (x1 : Vec Ideal S256x64 .f32) (x2 : Vec Ideal S1x1x256 .f32) (x3 : Vec Ideal S1x1x64 .f32)
    (b : Fin 256) (p n : Fin 64) :
    k1_pay3 (F := Ideal) x1 x2 x3 (ix3 b p n)
      = (x2 (ix3 (0 : Fin 1) (0 : Fin 1) b) * (x1 (ix2 b p) * x1 (ix2 b n)))
        * (x3 (ix3 (0 : Fin 1) (0 : Fin 1) p) * (Cert.Spec.one - x3 (ix3 (0 : Fin 1) (0 : Fin 1) n))) := by
  unfold k1_pay3
  simp only [shapeCast_self, subf_apply, mulf_apply, broadcast_apply, bcast_ab1_abc, bcast_a1c_abc, bcast_a11_abc, bcast_1bc_abc,
    cast_ab_ab1, cast_ab_a1b, cast_a_1a1, cast_a_11a, cast_a_a11, cast_11a_a]
  rfl

/-! ## The block summed over its three axes, and the two lanes -/

/-- The sum of a block over its three axes as the kernel takes it: the innermost axis first, the outermost last. -/
def total (X : FVec Ideal S256x64x64 .f32) : Ideal .f32 :=
  extractAt ![0, 0] (shapeCast S1x1 (multiReduction (F := Ideal) .add [1] S1 (shapeCast S1x256
    (multiReduction (F := Ideal) .add [1] S256 (multiReduction (F := Ideal) .add [2] S256x64 X 0x00000000#32
      reduces_S256x64x64_S256x64 (.inl rfl) rfl) 0x00000000#32 reduces_S256x64_S256 (.inl rfl) rfl)
    shapeCasts_S256_S1x256) 0x00000000#32 reduces_S1x256_S1 (.inl rfl) rfl) shapeCasts_S1_S1x1) inpos_S1x1_p0_0

/-- It is the triple sum over samples, positives and negatives. -/
theorem total_eq (X : FVec Ideal S256x64x64 .f32) :
    total X = ∑ b : Fin 256, ∑ p : Fin 64, ∑ n : Fin 64, X (ix3 b p n) := by
  unfold total extractAt
  refine (shapeCast_apply _ _ _ (ix1 (0 : Fin 1)) ?_).trans ?_
  · rw [Shape.rowMajor_val_one, Shape.rowMajor_val_two]; rfl
  refine (Ideal.multiReduction_add_single _ _ reduces_S1x256_S1 _ _ (ix1 (0 : Fin 1))).trans ?_
  show ∑ b : Fin 256, shapeCast S1x256 _ _ (reduces_S1x256_S1.lift (ix1 (0 : Fin 1)) b) = _
  refine Finset.sum_congr rfl fun b _ => ?_
  have e0 : reduces_S1x256_S1.lift (ix1 (0 : Fin 1)) b = ix2 (0 : Fin 1) b :=
    funext fun a => Fin.ext (match a with | ⟨0, _⟩ => rfl | ⟨1, _⟩ => rfl)
  rw [e0, shapeCast_a_1a_apply]
  refine (Ideal.multiReduction_add_single _ _ reduces_S256x64_S256 _ _ (ix1 b)).trans ?_
  show ∑ p : Fin 64, multiReduction (F := Ideal) .add [2] S256x64 X _ _ _ _ (reduces_S256x64_S256.lift (ix1 b) p) = _
  refine Finset.sum_congr rfl fun p _ => ?_
  have e1 : reduces_S256x64_S256.lift (ix1 b) p = ix2 b p :=
    funext fun a => Fin.ext (match a with | ⟨0, _⟩ => rfl | ⟨1, _⟩ => rfl)
  rw [e1]
  refine (Ideal.multiReduction_add_single _ _ reduces_S256x64x64_S256x64 _ _ (ix2 b p)).trans ?_
  show ∑ n : Fin 64, X (reduces_S256x64x64_S256x64.lift (ix2 b p) n) = _
  refine Finset.sum_congr rfl fun n _ => ?_
  have e2 : reduces_S256x64x64_S256x64.lift (ix2 b p) n = ix3 b p n :=
    funext fun a => Fin.ext (match a with | ⟨0, _⟩ => rfl | ⟨1, _⟩ => rfl | ⟨2, _⟩ => rfl)
  rw [e2]

/-- A lane test against a small literal selects by the lane's number. -/
theorem select_lane {α : Type} (j : Fin 128) (k : Nat) (hk : k < 128) (A B : α) :
    Scalar.select (IntOp.cmpi .eq (BitVec.ofNat 32 j.val) (BitVec.ofNat 32 k)) A B = if j.val = k then A else B := by
  have hj := j.isLt
  by_cases h : j.val = k
  · rw [if_pos h, h]
    show Scalar.select (BitVec.ofBool (BitVec.ofNat 32 k == BitVec.ofNat 32 k)) A B = A
    rw [beq_self_eq_true]
    exact select_one A B
  · rw [if_neg h]
    have hne : (BitVec.ofNat 32 j.val == BitVec.ofNat 32 k) = false := by
      rw [beq_eq_false_iff_ne]
      intro e
      have e' := congrArg BitVec.toNat e
      simp only [BitVec.toNat_ofNat] at e'
      omega
    show Scalar.select (BitVec.ofBool (BitVec.ofNat 32 j.val == BitVec.ofNat 32 k)) A B = B
    rw [hne]
    exact select_zero A B

/-- The stored row: lane 0 the sum of clipped margin times weight, lane 1 the sum of the weights, zero elsewhere. -/
theorem lanes_apply (v25 v40 v41 : FVec Ideal S256x64x64 .f32) (u w : Fin 1) (j : Fin 128) :
    k1_pay1 (F := Ideal) v25 v40 v41 (ix3 u w j)
      = if j.val = 0 then total (mulf (maximumf v25 v41) v40) else if j.val = 1 then total v40 else Cert.Spec.zero := by
  unfold k1_pay1
  simp only [shapeCast_ab_1ab_apply, select_apply, broadcast_apply]
  have hi : iota .tc S1x128 32 [1] iota_S1x128_d1_w32 (ix2 w j) = BitVec.ofNat 32 j.val :=
    iota_single_apply .tc S1x128 32 1 iota_S1x128_d1_w32 (ix2 w j)
  show Scalar.select (IntOp.cmpi .eq (iota .tc S1x128 32 [1] iota_S1x128_d1_w32 (ix2 w j)) (BitVec.ofNat 32 0))
      (total (mulf (maximumf v25 v41) v40))
      (Scalar.select (IntOp.cmpi .eq (iota .tc S1x128 32 [1] iota_S1x128_d1_w32 (ix2 w j)) (BitVec.ofNat 32 1))
        (total v40) Cert.Spec.zero) = _
  rw [hi, select_lane j 0 (by omega), select_lane j 1 (by omega)]

/-- The clipping floor is the zero word at every triple. -/
theorem zero_apply (i : S256x64x64.Idx) : k1_pay4 (F := Ideal) i = Cert.Spec.zero := rfl

/-- The row the body stores, from the anchor's distance rows `x0[0, b, m]`, the labels `x1[b, l]`, the anchor's labels
    `x2[0, 0, b]`, the anchor's ancestor row `x3[0, 0, p]` and its level-difference row `x4[0, 0, n]`: lane 0 holds the sum
    over (b, p, n) of the clipped margin times the weight, lane 1 the sum of the weights, every other lane zero. -/
theorem row_apply (x0 : Vec Ideal S1x256x64 .f32) (x1 : Vec Ideal S256x64 .f32) (x2 : Vec Ideal S1x1x256 .f32)
    (x3 x4 : Vec Ideal S1x1x64 .f32) (j : Fin 128) :
    k1_pay1 (F := Ideal) (k1_pay2 x0 x4) (k1_pay3 x1 x2 x3) k1_pay4 (ix3 (0 : Fin 1) (0 : Fin 1) j)
      = if j.val = 0 then
          ∑ b : Fin 256, ∑ p : Fin 64, ∑ n : Fin 64,
            max (x0 (ix3 0 b p) - (x0 (ix3 0 b n) - Cert.Spec.one * x4 (ix3 0 0 n))) Cert.Spec.zero
              * ((x2 (ix3 0 0 b) * (x1 (ix2 b p) * x1 (ix2 b n))) * (x3 (ix3 0 0 p) * (Cert.Spec.one - x3 (ix3 0 0 n))))
        else if j.val = 1 then
          ∑ b : Fin 256, ∑ p : Fin 64, ∑ n : Fin 64,
            (x2 (ix3 0 0 b) * (x1 (ix2 b p) * x1 (ix2 b n))) * (x3 (ix3 0 0 p) * (Cert.Spec.one - x3 (ix3 0 0 n)))
        else Cert.Spec.zero := by
  rw [lanes_apply, total_eq, total_eq]
  simp only [mulf_apply, maximumf_apply, margin_apply, weight_apply, zero_apply]

end Cert.KernelIdeal.Region1Pay

end
-- ==== Proof.Region1.lean ====
/-
  The second launch: what its output array holds when it ends.

  The launch walks the 64 anchors in order.  At anchor a it reads row a of the transposed distance matrix, the whole
  label array, row a of the transposed labels and row a of each table, and writes row a of the output: the anchor's
  loss in lane 0, its count in lane 1, zero in the other lanes.  The rows tile the output array, so when the launch
  ends the array holds every anchor's row.
-/
import proofs.«131965_j7928509628770_1_alg».proof.Proof.Gen.KernelIdeal.Frame
import proofs.«131965_j7928509628770_1_alg».proof.Proof.Region1Pay
import proofs.«131965_j7928509628770_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of the body's whole-buffer accesses, rank 3 and rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: at point t every window but the labels' is at block (t, 0, 0); the labels' window
    stays at block (0, 0). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

/-- The grid has one point per anchor. -/
theorem point_lt (t : Fin cfg1.N) : t.val < 64 := by
  have h : t.val < grid1.N := t.isLt
  have hN : grid1.N = 64 := N_1
  omega

/-- The anchor of a point. -/
abbrev anchor (t : Fin cfg1.N) : Fin 64 := ⟨t.val, point_lt t⟩

/-! ## The blocks the body reads, as rows of the arrays -/

/-- The distance block at point t is row t of the transposed distance matrix. -/
theorem dist_blk (c : Dev nD) (t : Fin cfg1.N) (b : Fin 256) (p : Fin 64) :
    (iblk1 V c 0 t : Vec Ideal S1x256x64 .f32) (ix3 (0 : Fin 1) b p)
      = (V c main_v3 : S64x256x64.Idx → EReal) (ix3 (anchor t) b p) := by
  obtain ⟨⟨e0, e1, e2⟩, -⟩ := idx_facts t
  show V c main_v3 (((cfg1.win 0).blk t).view.emb (ix3 (0 : Fin 1) b p)) = V c main_v3 (ix3 (anchor t) b p)
  have h : ((cfg1.win 0).blk t).view.emb (ix3 (0 : Fin 1) b p) = (ix3 (anchor t) b p : S64x256x64.Idx) := by
    funext d; apply Fin.ext
    match d with
    | ⟨0, _⟩ => show win1_0.index t (0 : Fin 3) * 1 + 1 * 0 = t.val; omega
    | ⟨1, _⟩ => show win1_0.index t (1 : Fin 3) * 256 + 1 * b.val = b.val; omega
    | ⟨2, _⟩ => show win1_0.index t (2 : Fin 3) * 64 + 1 * p.val = p.val; omega
  rw [h]

/-- The label block at every point is the whole label array. -/
theorem lab_blk (c : Dev nD) (t : Fin cfg1.N) (b : Fin 256) (l : Fin 64) :
    (iblk1 V c 1 t : Vec Ideal S256x64 .f32) (ix2 b l) = (V c main_v4 : S256x64.Idx → EReal) (ix2 b l) := by
  obtain ⟨-, ⟨e0, e1⟩, -⟩ := idx_facts t
  show V c main_v4 (((cfg1.win 1).blk t).view.emb (ix2 b l)) = V c main_v4 (ix2 b l)
  have h : ((cfg1.win 1).blk t).view.emb (ix2 b l) = (ix2 b l : S256x64.Idx) := by
    funext d; apply Fin.ext
    match d with
    | ⟨0, _⟩ => show win1_1.index t (0 : Fin 2) * 256 + 1 * b.val = b.val; omega
    | ⟨1, _⟩ => show win1_1.index t (1 : Fin 2) * 64 + 1 * l.val = l.val; omega
  rw [h]

/-- The anchor-label block at point t is row t of the transposed labels. -/
theorem labT_blk (c : Dev nD) (t : Fin cfg1.N) (b : Fin 256) :
    (iblk1 V c 2 t : Vec Ideal S1x1x256 .f32) (ix3 (0 : Fin 1) (0 : Fin 1) b)
      = (V c main_v6 : S64x1x256.Idx → EReal) (ix3 (anchor t) (0 : Fin 1) b) := by
  obtain ⟨-, -, ⟨e0, e1, e2⟩, -⟩ := idx_facts t
  show V c main_v6 (((cfg1.win 2).blk t).view.emb (ix3 (0 : Fin 1) (0 : Fin 1) b)) = V c main_v6 (ix3 (anchor t) (0 : Fin 1) b)
  have h : ((cfg1.win 2).blk t).view.emb (ix3 (0 : Fin 1) (0 : Fin 1) b) = (ix3 (anchor t) (0 : Fin 1) b : S64x1x256.Idx) := by
    funext d; apply Fin.ext
    match d with
    | ⟨0, _⟩ => show win1_2.index t (0 : Fin 3) * 1 + 1 * 0 = t.val; omega
    | ⟨1, _⟩ => show win1_2.index t (1 : Fin 3) * 1 + 1 * 0 = 0; omega
    | ⟨2, _⟩ => show win1_2.index t (2 : Fin 3) * 256 + 1 * b.val = b.val; omega
  rw [h]

/-- The ancestor block at point t is row t of the ancestor table. -/
theorem anc_blk (c : Dev nD) (t : Fin cfg1.N) (p : Fin 64) :
    (iblk1 V c 3 t : Vec Ideal S1x1x64 .f32) (ix3 (0 : Fin 1) (0 : Fin 1) p)
      = (V c main_v0 : S64x1x64.Idx → EReal) (ix3 (anchor t) (0 : Fin 1) p) := by
  obtain ⟨-, -, -, ⟨e0, e1, e2⟩, -⟩ := idx_facts t
  show V c main_v0 (((cfg1.win 3).blk t).view.emb (ix3 (0 : Fin 1) (0 : Fin 1) p)) = V c main_v0 (ix3 (anchor t) (0 : Fin 1) p)
  have h : ((cfg1.win 3).blk t).view.emb (ix3 (0 : Fin 1) (0 : Fin 1) p) = (ix3 (anchor t) (0 : Fin 1) p : S64x1x64.Idx) := by
    funext d; apply Fin.ext
    match d with
    | ⟨0, _⟩ => show win1_3.index t (0 : Fin 3) * 1 + 1 * 0 = t.val; omega
    | ⟨1, _⟩ => show win1_3.index t (1 : Fin 3) * 1 + 1 * 0 = 0; omega
    | ⟨2, _⟩ => show win1_3.index t (2 : Fin 3) * 64 + 1 * p.val = p.val; omega
  rw [h]

/-- The level-difference block at point t is row t of the level-difference table. -/
theorem ld_blk (c : Dev nD) (t : Fin cfg1.N) (n : Fin 64) :
    (iblk1 V c 4 t : Vec Ideal S1x1x64 .f32) (ix3 (0 : Fin 1) (0 : Fin 1) n)
      = (V c main_v1 : S64x1x64.Idx → EReal) (ix3 (anchor t) (0 : Fin 1) n) := by
  obtain ⟨-, -, -, -, ⟨e0, e1, e2⟩, -⟩ := idx_facts t
  show V c main_v1 (((cfg1.win 4).blk t).view.emb (ix3 (0 : Fin 1) (0 : Fin 1) n)) = V c main_v1 (ix3 (anchor t) (0 : Fin 1) n)
  have h : ((cfg1.win 4).blk t).view.emb (ix3 (0 : Fin 1) (0 : Fin 1) n) = (ix3 (anchor t) (0 : Fin 1) n : S64x1x64.Idx) := by
    funext d; apply Fin.ext
    match d with
    | ⟨0, _⟩ => show win1_4.index t (0 : Fin 3) * 1 + 1 * 0 = t.val; omega
    | ⟨1, _⟩ => show win1_4.index t (1 : Fin 3) * 1 + 1 * 0 = 0; omega
    | ⟨2, _⟩ => show win1_4.index t (2 : Fin 3) * 64 + 1 * n.val = n.val; omega
  rw [h]

/-! ## What a point writes back -/

/-- Lane j of the row the body leaves at point t is lane j of row t of `Spec.rows`: the body's sums read the blocks,
    and each block is the anchor's row of its array. -/
theorem row_eq (c : Dev nD) (t : Fin cfg1.N) (j : Fin 128) :
    k1_pay1 (F := Ideal) (k1_pay2 (iblk1 V c 0 t) (iblk1 V c 4 t)) (k1_pay3 (iblk1 V c 1 t) (iblk1 V c 2 t) (iblk1 V c 3 t))
        k1_pay4 (ix3 (0 : Fin 1) (0 : Fin 1) j)
      = Cert.Spec.rows (V c main_v3) (V c main_v4) (V c main_v6) (V c main_v0) (V c main_v1) (ix3 (anchor t) (0 : Fin 1) j) := by
  refine (Cert.KernelIdeal.Region1Pay.row_apply (iblk1 V c 0 t) (iblk1 V c 1 t) (iblk1 V c 2 t) (iblk1 V c 3 t) (iblk1 V c 4 t) j).trans ?_
  unfold Cert.Spec.rows Cert.Spec.lossRow Cert.Spec.countRow
  show _ = if j.val = 0 then _ else if j.val = 1 then _ else Cert.Spec.zero
  simp only [dist_blk V c t, lab_blk V c t, labT_blk V c t, anc_blk V c t, ld_blk V c t]

/-- What point t writes back is block t of `Spec.rows` of the arrays the launch was entered with. -/
theorem flushed_eq (c : Dev nD) (t : Fin cfg1.N) :
    (dat1 (F := Ideal) V c).flushed 5 t
      = ((cfg1.win 5).blk t).view.read (Elt Ideal)
          (Cert.Spec.rows (V c main_v3) (V c main_v4) (V c main_v6) (V c main_v0) (V c main_v1)) := by
  show (cfg1.win 5).cut (grid1.coords t) ((dat1 V c).after 5 t) = _
  rw [after1_5]
  unfold out1_5
  rw [View.canon_unit_zero hz3]
  simp only [View.ld_unit_zero (S := S1x256x64) hz3, View.ld_unit_zero (S := S256x64) hz2, View.ld_unit_zero (S := S1x1x256) hz3,
    View.ld_unit_zero (S := S1x1x64) hz3]
  obtain ⟨-, -, -, -, -, ⟨e0, e1, e2⟩⟩ := idx_facts t
  funext y
  obtain ⟨y0, y1, j, rfl⟩ : ∃ (y0 y1 : Fin 1) (j : Fin 128), y = ix3 y0 y1 j := ⟨y 0, y 1, y 2, eq_ix3 y⟩
  obtain rfl : y0 = 0 := Subsingleton.elim _ _
  obtain rfl : y1 = 0 := Subsingleton.elim _ _
  have h : ((cfg1.win 5).blk t).view.emb (ix3 (0 : Fin 1) (0 : Fin 1) j) = (ix3 (anchor t) (0 : Fin 1) j : S64x1x128.Idx) := by
    funext d; apply Fin.ext
    match d with
    | ⟨0, _⟩ => show win1_5.index t (0 : Fin 3) * 1 + 1 * 0 = t.val; omega
    | ⟨1, _⟩ => show win1_5.index t (1 : Fin 3) * 1 + 1 * 0 = 0; omega
    | ⟨2, _⟩ => show win1_5.index t (2 : Fin 3) * 128 + 1 * j.val = j.val; omega
  show _ = Cert.Spec.rows (V c main_v3) (V c main_v4) (V c main_v6) (V c main_v0) (V c main_v1)
      (((cfg1.win 5).blk t).view.emb (ix3 (0 : Fin 1) (0 : Fin 1) j))
  rw [h]
  exact row_eq V c t j

/-! ## The rows tile the array -/

/-- An index of the output array is in point t's block iff each coordinate is in the block's range on its axis. -/
theorem mem_blk (t : Fin cfg1.N) (i : S64x1x128.Idx) :
    i ∈ ((cfg1.win 5).blk t).view.set
      ↔ ∀ a : Fin 3, win1_5.index t a * S1x1x128.size a ≤ (i a).val ∧ (i a).val < win1_5.index t a * S1x1x128.size a + S1x1x128.size a := by
  show i ∈ ((View.whole main_v7).slice (win1_5.rect t)).set ↔ _
  rw [View.set_slice_whole, Rect.mem_set_unit]
  exact Iff.rfl

/-- Every index of the output array is in the block of the point of its anchor: row a is written at point a. -/
theorem covered (i : S64x1x128.Idx) :
    ∃ t : Fin cfg1.N, (cfg1.win 5).flush t = true ∧ i ∈ ((cfg1.win 5).blk t).view.set := by
  have hi0 : (i 0).val < 64 := (i 0).isLt
  have hi1 : (i 1).val < 1 := (i 1).isLt
  have hi2 : (i 2).val < 128 := (i 2).isLt
  have hN : grid1.N = 64 := N_1
  let t : Fin cfg1.N := ⟨(i 0).val, by show (i 0).val < grid1.N; omega⟩
  obtain ⟨-, -, -, -, -, ⟨e0, e1, e2⟩⟩ := idx_facts t
  have ht : t.val = (i 0).val := rfl
  refine ⟨t, flush1_5 t, ?_⟩
  rw [mem_blk]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 1 ≤ (i 1).val ∧ (i 1).val < win1_5.index t (1 : Fin 3) * 1 + 1
    omega
  | ⟨2, _⟩ =>
    show win1_5.index t (2 : Fin 3) * 128 ≤ (i 2).val ∧ (i 2).val < win1_5.index t (2 : Fin 3) * 128 + 128
    omega

/-- The second launch's output array ends with each anchor's loss and count in lanes 0 and 1 of its row. -/
theorem final1 (c : Dev nD) : (dat1 (F := Ideal) V c).arrAt 5 cfg1.N
    = Cert.Spec.rows (V c main_v3) (V c main_v4) (V c main_v6) (V c main_v0) (V c main_v1) :=
  (dat1 (F := Ideal) V c).arrAt_eq_of_cover 5
    (Cert.Spec.rows (V c main_v3) (V c main_v4) (V c main_v6) (V c main_v0) (V c main_v1))
    (fun t _ => flushed_eq V c t) covered

end Cert.KernelIdeal.Region1

end
-- ==== Proof.KernelValue.lean ====
/-
  The kernel's result buffer at the end of the run, as a function of the two arguments.

  The program is six segments: the two constant tables and their reshapes; the first launch, which leaves the
  distance matrix; a transpose of it, the labels as reals, and the labels transposed with a unit axis; the second
  launch, which leaves one row per anchor with the anchor's loss in lane 0 and its count in lane 1; the two lane
  sums with the quotient; and the final selection.  Each buffer the second launch reads is followed back to the
  launch contents of the two arguments (or to a constant table) and read at an index; with those reads an anchor's
  row is that anchor's share of the loss and of the count, and the two lane sums are the loss and the count.
-/
import proofs.«131965_j7928509628770_1_alg».proof.Proof.Gen.KernelIdeal.Frame
import proofs.«131965_j7928509628770_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«131965_j7928509628770_1_alg».proof.Proof.Region0
import proofs.«131965_j7928509628770_1_alg».proof.Proof.Region1
import Idealize.ShloMosaic.Lib.StableHlo.Run
set_option maxRecDepth 16384

open scoped BigOperators

noncomputable section

namespace Cert.KernelIdeal.Value

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The kernel program's ancestor table as extended reals. -/
def ancTable : Cert.Spec.Tab := fun i => Ideal.ofBits .f32 (lit0 (S64x64.rowMajor i))
/-- The kernel program's level-difference table as extended reals. -/
def ldTable : Cert.Spec.Tab := fun i => Ideal.ofBits .f32 (lit1 (S64x64.rowMajor i))

/-! ## The layout operations read at an index

Stated over arbitrary arrays of the literal shapes: a transpose moves coordinates, a reshape keeps the row-major
position, and a unit axis contributes nothing to that position. -/

section Layout

/-- The distance matrix with its first two axes exchanged, read at (a, b, k), is the matrix at (b, a, k). -/
theorem transpose102_apply (D : S256x64x64.Idx → EReal) (h : S256x64x64.Transposes [1, 0, 2] S64x256x64)
    (a : Fin 64) (b : Fin 256) (k : Fin 64) :
    transpose S64x256x64 [1, 0, 2] D h (ix3 a b k) = D (ix3 b a k) :=
  transpose_apply [1, 0, 2] D h (ix3 a b k) (ix3 b a k) fun d =>
    match d with
    | ⟨0, _⟩ => rfl
    | ⟨1, _⟩ => rfl
    | ⟨2, _⟩ => rfl

/-- The labels transposed and given a unit middle axis, read at (a, 0, b), are the labels at (b, a): the position
    of (a, 0, b) in 64 × 1 × 256 is a · 256 + b, the position of (a, b) in 64 × 256. -/
theorem labT_apply (lab : S256x64.Idx → EReal) (h1 : S256x64.Transposes [1, 0] S64x256) (h2 : S64x256.ShapeCasts S64x1x256)
    (a : Fin 64) (b : Fin 256) :
    shapeCast S64x1x256 (transpose S64x256 [1, 0] lab h1) h2 (ix3 a 0 b) = lab (ix2 b a) := by
  refine (shapeCast_apply _ h2 (ix3 a 0 b) (ix2 a b) ?_).trans ?_
  · rw [Shape.rowMajor_val_two, Shape.rowMajor_val_three]
    show a.val * 256 + b.val = (a.val * 1 + 0) * 256 + b.val
    omega
  · exact transpose_apply [1, 0] lab h1 (ix2 a b) (ix2 b a) fun d =>
      match d with
      | ⟨0, _⟩ => rfl
      | ⟨1, _⟩ => rfl

/-- A 64 × 64 table given a unit middle axis, read at (a, 0, p), is the table at (a, p). -/
theorem tab3_apply (T : S64x64.Idx → EReal) (h : S64x64.ShapeCasts S64x1x64) (a p : Fin 64) :
    shapeCast S64x1x64 T h (ix3 a 0 p) = T (ix2 a p) := by
  refine shapeCast_apply T h (ix3 a 0 p) (ix2 a p) ?_
  rw [Shape.rowMajor_val_two, Shape.rowMajor_val_three]
  show a.val * 64 + p.val = (a.val * 1 + 0) * 64 + p.val
  omega

end Layout

/-! ## An anchor's row is the anchor's share

With the five arrays the second launch reads written as layout operations on the distance matrix, the labels and
the two tables, the triple sum of an anchor's row is term by term the triple sum of the anchor's share. -/

section Rows

theorem lossRow_eq (D : Cert.Spec.Dist) (lab : Cert.Spec.Lab) (anc ld : Cert.Spec.Tab)
    (h0 : S256x64x64.Transposes [1, 0, 2] S64x256x64) (h1 : S256x64.Transposes [1, 0] S64x256)
    (h2 : S64x256.ShapeCasts S64x1x256) (h3 : S64x64.ShapeCasts S64x1x64) (a : Fin 64) :
    Cert.Spec.lossRow (transpose S64x256x64 [1, 0, 2] D h0) lab (shapeCast S64x1x256 (transpose S64x256 [1, 0] lab h1) h2)
        (shapeCast S64x1x64 anc h3) (shapeCast S64x1x64 ld h3) a
      = Cert.Spec.lossA D lab anc ld a := by
  unfold Cert.Spec.lossRow Cert.Spec.lossA Cert.Spec.hinge Cert.Spec.weightK
  refine Finset.sum_congr rfl fun b _ => Finset.sum_congr rfl fun p _ => Finset.sum_congr rfl fun n _ => ?_
  rw [transpose102_apply, transpose102_apply, labT_apply, tab3_apply, tab3_apply, tab3_apply]

theorem countRow_eq (lab : Cert.Spec.Lab) (anc : Cert.Spec.Tab)
    (h1 : S256x64.Transposes [1, 0] S64x256)
    (h2 : S64x256.ShapeCasts S64x1x256) (h3 : S64x64.ShapeCasts S64x1x64) (a : Fin 64) :
    Cert.Spec.countRow lab (shapeCast S64x1x256 (transpose S64x256 [1, 0] lab h1) h2) (shapeCast S64x1x64 anc h3) a
      = Cert.Spec.countA lab anc a := by
  unfold Cert.Spec.countRow Cert.Spec.countA Cert.Spec.weightK
  refine Finset.sum_congr rfl fun b _ => Finset.sum_congr rfl fun p _ => Finset.sum_congr rfl fun n _ => ?_
  rw [labT_apply, tab3_apply, tab3_apply]

/-- Lane 0 of anchor a's row is the anchor's loss. -/
theorem rows_lane0 (Dt : Cert.Spec.DistT) (lab : Cert.Spec.Lab) (labT : Cert.Spec.LabT) (anc3 ld3 : Cert.Spec.Tab3) (a : Fin 64) :
    Cert.Spec.rows Dt lab labT anc3 ld3 (ix3 a 0 0) = Cert.Spec.lossRow Dt lab labT anc3 ld3 a := by
  unfold Cert.Spec.rows
  exact if_pos rfl

/-- Lane 1 of anchor a's row is the anchor's count. -/
theorem rows_lane1 (Dt : Cert.Spec.DistT) (lab : Cert.Spec.Lab) (labT : Cert.Spec.LabT) (anc3 ld3 : Cert.Spec.Tab3) (a : Fin 64) :
    Cert.Spec.rows Dt lab labT anc3 ld3 (ix3 a 0 1) = Cert.Spec.countRow lab labT anc3 a := by
  unfold Cert.Spec.rows
  have h : ¬ ((ix3 a (0 : Fin 1) (1 : Fin 128) : S64x1x128.Idx) 2).val = 0 := by
    show ¬ ((1 : Fin 128).val = 0)
    decide
  exact (if_neg h).trans (if_pos rfl)

end Rows

/-! ## One lane of the rows, summed over the anchors -/

section Lane

/-- A sum over a rank-1 index set is the sum over its coordinate. -/
theorem sum_rank1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- Lane l of a 64 × 1 × 128 array, cut out as a 64 × 1 × 1 block, flattened to a 64-vector and summed from zero
    into a scalar, is the sum over the 64 rows of the array at (a, 0, l).  The reduction removes the vector's only
    axis, so every element reduces to the scalar's one index and the sum is over the whole vector. -/
theorem lane_sum (R : S64x1x128.Idx → EReal) (off : Fin 3 → Nat) (h : S64x1x128.Slices off S64x1x1) (l : Fin 128)
    (h0 : off 0 = 0) (h1 : off 1 = 0) (h2 : off 2 = l.val) :
    Host.reduceAdd (F := Ideal) (shapeCast S64 (extractStridedSlice S64x1x1 off R h) shapeCasts_S64x1x1_S64)
        (constant (F := Ideal) S_ .f32 0x00000000#32) reducesTo_S64_S_d0 h_S_
      = fun _ => ∑ a : Fin 64, R (ix3 a 0 l) := by
  funext j
  unfold Host.reduceAdd
  rw [Ideal.hostReduceAdd_def, Ideal.hostReduceAdd_total reducesTo_S64_S_d0 (fun b => b.elim0), constant_apply,
    Ideal.ofBits_zero_f32, zero_add, sum_rank1]
  refine Finset.sum_congr rfl fun a _ => ?_
  refine (shapeCast_apply _ shapeCasts_S64x1x1_S64 (ix1 a) (ix3 a 0 0) ?_).trans ?_
  · rw [Shape.rowMajor_val_three, Shape.rowMajor_val_one]
    show (a.val * 1 + 0) * 1 + 0 = a.val
    omega
  · refine extractStridedSlice_apply off R h (ix3 a 0 0) (ix3 a 0 l) fun d => ?_
    match d with
    | ⟨0, _⟩ => show a.val = off 0 + a.val; omega
    | ⟨1, _⟩ => show 0 = off 1 + 0; omega
    | ⟨2, _⟩ => show l.val = off 2 + 0; omega

end Lane

variable (m : (ℓ : Loc nD τ sig) → Buf (Elt Ideal) ℓ) (ρ : Dev nD → PrngReg)

/-- The feature array as launched. -/
abbrev featOf (c : Dev nD) : Cert.Spec.Feat := m ((c.tc : Thread nD τ).loc main_arg0)
/-- The label array as launched, as reals. -/
abbrev labOf (c : Dev nD) : Cert.Spec.Lab :=
  sitofp (F := Ideal) .f32 (m ((c.tc : Thread nD τ).loc main_arg1) : IVec S256x64 32)

/-! ## The buffers the second launch reads, at its entry

Each is followed back through the segments before it: an operation changes only the buffer it writes, and a
launch changes only its own arrays. -/

section Entry

/-- The first host operations write only the tables and their reshapes, so the feature array is as launched. -/
theorem W1_arg0 (c : Dev nD) : W1 (F := Ideal) m ρ c (Proc.devRef .tc main_arg0) = m ((c.tc : Thread nD τ).loc main_arg0) := by
  show StableHlo.after hostOps0 (W0 m ρ c) (Proc.devRef .tc main_arg0) = _
  after_results

/-- Likewise the label array. -/
theorem W1_arg1 (c : Dev nD) : W1 (F := Ideal) m ρ c (Proc.devRef .tc main_arg1) = m ((c.tc : Thread nD τ).loc main_arg1) := by
  show StableHlo.after hostOps0 (W0 m ρ c) (Proc.devRef .tc main_arg1) = _
  after_results

/-- After the first launch its output array is the distance matrix of the features as launched. -/
theorem W2_v2 (c : Dev nD) : (W2 (F := Ideal) m ρ c (Proc.devRef .tc main_v2) : S256x64x64.Idx → EReal) = Cert.Spec.dist (featOf m c) := by
  refine (W2_arr m ρ c 1).trans ?_
  refine (Cert.KernelIdeal.Region0.final0 (V1 m ρ) c).trans ?_
  exact congrArg Cert.Spec.dist (W1_arg0 m ρ c)

/-- The first launch does not touch the label array. -/
theorem W2_arg1 (c : Dev nD) : W2 (F := Ideal) m ρ c (Proc.devRef .tc main_arg1) = m ((c.tc : Thread nD τ).loc main_arg1) :=
  (W2_of_ne m ρ c main_arg1 (by decide)).trans (W1_arg1 m ρ c)

/-- The distance matrix with the anchor axis outermost. -/
theorem v3_entry (c : Dev nD) :
    (V3 (F := Ideal) m ρ c main_v3 : S64x256x64.Idx → EReal)
      = transpose S64x256x64 [1, 0, 2] (Cert.Spec.dist (featOf m c)) transposes_S256x64x64_S64x256x64_1_0_2 := by
  rw [← W2_v2 m ρ c]
  show StableHlo.after hostOps1 (W2 m ρ c) (Proc.devRef .tc main_v3) = _
  after_results

/-- The labels as reals. -/
theorem v4_entry (c : Dev nD) : (V3 (F := Ideal) m ρ c main_v4 : S256x64.Idx → EReal) = labOf m c := by
  have e : (V3 (F := Ideal) m ρ c main_v4 : S256x64.Idx → EReal)
      = sitofp (F := Ideal) .f32 (W2 (F := Ideal) m ρ c (Proc.devRef .tc main_arg1) : IVec S256x64 32) := by
    show StableHlo.after hostOps1 (W2 m ρ c) (Proc.devRef .tc main_v4) = _
    after_results
  rw [e, W2_arg1]

/-- The labels with the anchor axis outermost and a unit axis. -/
theorem v6_entry (c : Dev nD) : (V3 (F := Ideal) m ρ c main_v6 : S64x1x256.Idx → EReal)
    = shapeCast S64x1x256 (transpose S64x256 [1, 0] (labOf m c) transposes_S256x64_S64x256_1_0) shapeCasts_S64x256_S64x1x256 := by
  have e : (V3 (F := Ideal) m ρ c main_v6 : S64x1x256.Idx → EReal)
      = shapeCast S64x1x256 (transpose S64x256 [1, 0] (sitofp (F := Ideal) .f32 (W2 (F := Ideal) m ρ c (Proc.devRef .tc main_arg1) : IVec S256x64 32)) transposes_S256x64_S64x256_1_0) shapeCasts_S64x256_S64x1x256 := by
    show StableHlo.after hostOps1 (W2 m ρ c) (Proc.devRef .tc main_v6) = _
    after_results
    rfl
  rw [e, W2_arg1]

/-- The ancestor table with a unit middle axis: written before the first launch and untouched since. -/
theorem v0_entry (c : Dev nD) : (V3 (F := Ideal) m ρ c main_v0 : S64x1x64.Idx → EReal)
    = shapeCast S64x1x64 ancTable shapeCasts_S64x64_S64x1x64 := by
  have e3 : V3 (F := Ideal) m ρ c main_v0 = W2 (F := Ideal) m ρ c (Proc.devRef .tc main_v0) := by
    show StableHlo.after hostOps1 (W2 m ρ c) (Proc.devRef .tc main_v0) = _
    after_results
  have e1 : (W1 (F := Ideal) m ρ c (Proc.devRef .tc main_v0) : S64x1x64.Idx → EReal)
      = shapeCast S64x1x64 ancTable shapeCasts_S64x64_S64x1x64 := by
    show StableHlo.after hostOps0 (W0 m ρ c) (Proc.devRef .tc main_v0) = _
    after_results
    unfold ancTable
    rfl
  exact e3.trans ((W2_of_ne m ρ c main_v0 (by decide)).trans e1)

/-- The level-difference table with a unit middle axis. -/
theorem v1_entry (c : Dev nD) : (V3 (F := Ideal) m ρ c main_v1 : S64x1x64.Idx → EReal)
    = shapeCast S64x1x64 ldTable shapeCasts_S64x64_S64x1x64 := by
  have e3 : V3 (F := Ideal) m ρ c main_v1 = W2 (F := Ideal) m ρ c (Proc.devRef .tc main_v1) := by
    show StableHlo.after hostOps1 (W2 m ρ c) (Proc.devRef .tc main_v1) = _
    after_results
  have e1 : (W1 (F := Ideal) m ρ c (Proc.devRef .tc main_v1) : S64x1x64.Idx → EReal)
      = shapeCast S64x1x64 ldTable shapeCasts_S64x64_S64x1x64 := by
    show StableHlo.after hostOps0 (W0 m ρ c) (Proc.devRef .tc main_v1) = _
    after_results
    unfold ldTable
    rfl
  exact e3.trans ((W2_of_ne m ρ c main_v1 (by decide)).trans e1)

end Entry

/-! ## The last host operations and the assembly -/

section Tail

/-- The operations after the second launch, from any contents: the closing step of the two lane sums of the
    launch's output array. -/
theorem tail_of (Wv : Valuation τ sig (Elt Ideal)) :
    StableHlo.after hostOps2_1 (StableHlo.after hostOps2 Wv) (Proc.devRef .tc main_v17)
      = Cert.Spec.closing
          (Host.reduceAdd (F := Ideal) (shapeCast S64 (extractStridedSlice S64x1x1 ![0, 0, 0]
              (Wv (Proc.devRef .tc main_v7) : S64x1x128.Idx → EReal) slices_S64x1x128_S64x1x1_0_0_0) shapeCasts_S64x1x1_S64)
            (constant (F := Ideal) S_ .f32 0x00000000#32) reducesTo_S64_S_d0 h_S_)
          (Host.reduceAdd (F := Ideal) (shapeCast S64 (extractStridedSlice S64x1x1 ![0, 0, 1]
              (Wv (Proc.devRef .tc main_v7) : S64x1x128.Idx → EReal) slices_S64x1x128_S64x1x1_0_0_1) shapeCasts_S64x1x1_S64)
            (constant (F := Ideal) S_ .f32 0x00000000#32) reducesTo_S64_S_d0 h_S_) := by
  after_results
  rfl

/-- The second launch's output at its exit, from the launch contents of the two arguments. -/
theorem v7_exit (c : Dev nD) :
    (W4 (F := Ideal) m ρ c (Proc.devRef .tc main_v7) : S64x1x128.Idx → EReal)
      = Cert.Spec.rows (transpose S64x256x64 [1, 0, 2] (Cert.Spec.dist (featOf m c)) transposes_S256x64x64_S64x256x64_1_0_2)
          (labOf m c)
          (shapeCast S64x1x256 (transpose S64x256 [1, 0] (labOf m c) transposes_S256x64_S64x256_1_0) shapeCasts_S64x256_S64x1x256)
          (shapeCast S64x1x64 ancTable shapeCasts_S64x64_S64x1x64) (shapeCast S64x1x64 ldTable shapeCasts_S64x64_S64x1x64) := by
  refine ((W4_arr m ρ c 5).trans (Cert.KernelIdeal.Region1.final1 (V3 m ρ) c)).trans ?_
  rw [v3_entry, v4_entry, v6_entry, v0_entry, v1_entry]

/-- The result buffer at the last segment boundary: the closing step of the anchor-by-anchor loss and count of the
    launch contents of the two arguments. -/
theorem result_eq (c : Dev nD) :
    W6 (F := Ideal) m ρ c (Proc.devRef .tc main_v17)
      = Cert.Spec.closing
          (fun _ => Cert.Spec.lossK (Cert.Spec.dist (featOf m c)) (labOf m c) ancTable ldTable)
          (fun _ => Cert.Spec.countK (labOf m c) ancTable) := by
  refine (tail_of (W4 m ρ c)).trans (congrArg₂ Cert.Spec.closing ?_ ?_)
  · rw [v7_exit m ρ c]
    refine (lane_sum _ _ _ 0 rfl rfl rfl).trans ?_
    funext _
    unfold Cert.Spec.lossK
    refine Finset.sum_congr rfl fun a _ => ?_
    rw [rows_lane0, lossRow_eq]
  · rw [v7_exit m ρ c]
    refine (lane_sum _ _ _ 1 rfl rfl rfl).trans ?_
    funext _
    unfold Cert.Spec.countK
    refine Finset.sum_congr rfl fun a _ => ?_
    rw [rows_lane1, countRow_eq]

end Tail

end Cert.KernelIdeal.Value

end
-- ==== Proof.RefTerm.lean ====
/-
  The reference's operations as pure functions of its two arguments, in the order the program applies them.

  `dist` is the row-normalised cosine distance matrix, `hinge` the clipped margin over the four-dimensional
  index set (b, a, p, n), `weight` the product of the three labels with the two table factors over the same
  index set, `lossSum` and `countSum` the two total sums and `result` the closing quotient or the bare loss.
  The two tables are parameters here; the program's own are `ancTable` and `ldTable`.
-/
import proofs.«131965_j7928509628770_1_alg».proof.Proof.Gen.ReferenceIdeal

noncomputable section

namespace Cert.ReferenceIdeal.Term

open Cert.ReferenceIdeal Cert.ReferenceIdeal.Gen Idealize.ShloMosaic

variable {F : FTy → Type} [FloatOps F]

/-- The program's ancestor table. -/
def ancTable : FVec F S64x64 .f32 := fun i => FloatOps.ofBits .f32 (lit0 (S64x64.rowMajor i))
/-- The program's level-difference table. -/
def ldTable : FVec F S64x64 .f32 := fun i => FloatOps.ofBits .f32 (lit1 (S64x64.rowMajor i))

/-- The length of every feature row, kept as a column. -/
def norm (x : FVec F S256x64x1024 .f32) : FVec F S256x64x1 .f32 :=
  Host.sqrt (broadcastInDim S256x64x1 ![0, 1] bcast_S256x64_S256x64x1_0_1
    (Host.reduceAdd (mulf x x) (constant S_ .f32 0x00000000#32) reducesTo_S256x64x1024_S256x64_d2 h_S_))

/-- Every feature row divided by its length, the length kept away from zero. -/
def unit (x : FVec F S256x64x1024 .f32) : FVec F S256x64x1024 .f32 :=
  Host.divf x (broadcastInDim S256x64x1024 ![0, 1, 2] bcast_S256x64x1_S256x64x1024_0_1_2
    (maximumf (norm x) (broadcastInDim S256x64x1 ![] bcast_S_S256x64x1 (constant S_ .f32 0x2B8CBCCC#32))))

/-- The cosine distance matrix of each sample. -/
def dist (x : FVec F S256x64x1024 .f32) : FVec F S256x64x64 .f32 :=
  subf (broadcastInDim S256x64x64 ![] bcast_S_S256x64x64 (constant S_ .f32 0x3F800000#32))
    (Host.dotGeneral dot_S256x64x1024_S256x64x1024_S256x64x64_2_2_1_1_0_0 none (unit x) (unit x))

/-- The negative's term: the distance less the margin times the level difference. -/
def negTerm (D : FVec F S256x64x64 .f32) (ld : FVec F S64x64 .f32) : FVec F S256x64x64 .f32 :=
  subf D (broadcastInDim S256x64x64 ![0, 1, 2] bcast_S1x64x64_S256x64x64_0_1_2
    (mulf (broadcastInDim S1x64x64 ![] bcast_S_S1x64x64 (constant S_ .f32 0x3F800000#32))
      (broadcastInDim S1x64x64 ![1, 2] bcast_S64x64_S1x64x64_1_2 ld)))

/-- The margin of every triplet, clipped at zero. -/
def hinge (D : FVec F S256x64x64 .f32) (ld : FVec F S64x64 .f32) : FVec F S256x64x64x64 .f32 :=
  maximumf
    (subf
      (broadcastInDim S256x64x64x64 ![0, 1, 2, 3] bcast_S256x64x64x1_S256x64x64x64_0_1_2_3
        (broadcastInDim S256x64x64x1 ![0, 1, 2] bcast_S256x64x64_S256x64x64x1_0_1_2 D))
      (broadcastInDim S256x64x64x64 ![0, 1, 2, 3] bcast_S256x64x1x64_S256x64x64x64_0_1_2_3
        (broadcastInDim S256x64x1x64 ![0, 1, 3] bcast_S256x64x64_S256x64x1x64_0_1_3 (negTerm D ld))))
    (broadcastInDim S256x64x64x64 ![] bcast_S_S256x64x64x64 (constant S_ .f32 0x00000000#32))

/-- The weight of every triplet: the three labels, the ancestor entry and one less the ancestor entry. -/
def weight (lab : FVec F S256x64 .f32) (anc : FVec F S64x64 .f32) : FVec F S256x64x64x64 .f32 :=
  mulf
    (mulf
      (mulf
        (broadcastInDim S256x64x64x64 ![0, 1, 2, 3] bcast_S256x64x64x1_S256x64x64x64_0_1_2_3
          (mulf
            (broadcastInDim S256x64x64x1 ![0, 1, 2, 3] bcast_S256x64x1x1_S256x64x64x1_0_1_2_3
              (broadcastInDim S256x64x1x1 ![0, 1] bcast_S256x64_S256x64x1x1_0_1 lab))
            (broadcastInDim S256x64x64x1 ![0, 1, 2, 3] bcast_S256x1x64x1_S256x64x64x1_0_1_2_3
              (broadcastInDim S256x1x64x1 ![0, 2] bcast_S256x64_S256x1x64x1_0_2 lab))))
        (broadcastInDim S256x64x64x64 ![0, 1, 2, 3] bcast_S256x1x1x64_S256x64x64x64_0_1_2_3
          (broadcastInDim S256x1x1x64 ![0, 3] bcast_S256x64_S256x1x1x64_0_3 lab)))
      (broadcastInDim S256x64x64x64 ![0, 1, 2, 3] bcast_S1x64x64x1_S256x64x64x64_0_1_2_3
        (broadcastInDim S1x64x64x1 ![1, 2] bcast_S64x64_S1x64x64x1_1_2 anc)))
    (broadcastInDim S256x64x64x64 ![0, 1, 2, 3] bcast_S1x64x1x64_S256x64x64x64_0_1_2_3
      (broadcastInDim S1x64x1x64 ![1, 3] bcast_S64x64_S1x64x1x64_1_3
        (subf (broadcastInDim S64x64 ![] bcast_S_S64x64 (constant S_ .f32 0x3F800000#32)) anc)))

/-- The sum of hinge times weight over every triplet of every sample. -/
def lossSum (x : FVec F S256x64x1024 .f32) (lab : FVec F S256x64 .f32) (anc ld : FVec F S64x64 .f32) : FVec F S_ .f32 :=
  Host.reduceAdd (mulf (hinge (dist x) ld) (weight lab anc)) (constant S_ .f32 0x00000000#32)
    reducesTo_S256x64x64x64_S_d0_1_2_3 h_S_

/-- The sum of the weights. -/
def countSum (lab : FVec F S256x64 .f32) (anc : FVec F S64x64 .f32) : FVec F S_ .f32 :=
  Host.reduceAdd (weight lab anc) (constant S_ .f32 0x00000000#32) reducesTo_S256x64x64x64_S_d0_1_2_3 h_S_

/-- The loss over the count where the count is positive (the count kept at least one), else the loss. -/
def closing (loss count : FVec F S_ .f32) : FVec F S_ .f32 :=
  select (cmpf .ogt count (constant S_ .f32 0x00000000#32))
    (Host.divf loss (maximumf count (constant S_ .f32 0x3F800000#32))) loss

/-- The program's result as a function of its two arguments. -/
def result (x : FVec F S256x64x1024 .f32) (labels : IVec S256x64 32) : FVec F S_ .f32 :=
  closing (lossSum x (sitofp .f32 labels) ancTable ldTable) (countSum (sitofp .f32 labels) ancTable)

end Cert.ReferenceIdeal.Term

end
-- ==== Proof.RefRun.lean ====
/-
  The reference program's run, read back.

  @main is a straight line of host operations: the two constant tables, the labels as reals, the row lengths (the
  outlined `norm`: square, sum along the feature axis, keep the axis, square root), the normalised rows, the batched
  product, one minus it, the negative's term, the four-dimensional margin and weight, the clipping (the outlined
  `relu`), the two total sums and the closing select (the outlined `_where`).  Listed in order with each outlined
  function's operations at its call site, every weakly fair execution ends with each buffer at the fold of the
  operations over the launch contents; the result buffer's fold is `Term.result` of the two arguments.
-/
import proofs.«131965_j7928509628770_1_alg».proof.Proof.Gen.ReferenceIdeal
import proofs.«131965_j7928509628770_1_alg».proof.Proof.RefTerm
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in order, the outlined functions' at their call sites. -/
abbrev ops : List (HloOp τ sig (Elt F)) :=
  [ StableHlo.nullary main_cst (fun i => FloatOps.ofBits .f32 (lit0 (S64x64.rowMajor i))),
    StableHlo.nullary main_cst_0 (fun i => FloatOps.ofBits .f32 (lit1 (S64x64.rowMajor i))),
    StableHlo.unary main_arg1 main_v0 (sitofp .f32 : (⟨S256x64, .i32⟩ : BufTy).Contents (Elt F) → (⟨S256x64, .f32⟩ : BufTy).Contents (Elt F)),
    StableHlo.TRef.binary (.of main_arg0 : StableHlo.TRef sig ⟨S256x64x1024, .f32⟩) (.of main_arg0 : StableHlo.TRef sig ⟨S256x64x1024, .f32⟩) main_call0.v0 mulf,
    StableHlo.TRef.nullary main_call0.cst (constant S_ .f32 0x00000000#32),
    StableHlo.TRef.binary main_call0.v0 main_call0.cst main_call0.v1 (fun x v => Host.reduceAdd x v reducesTo_S256x64x1024_S256x64_d2 h_S_),
    StableHlo.TRef.unary main_call0.v1 main_call0.v2 (broadcastInDim S256x64x1 ![0, 1] bcast_S256x64_S256x64x1_0_1),
    StableHlo.TRef.unary main_call0.v2 main_call0.v3 Host.sqrt,
    StableHlo.nullary main_cst_1 (constant S_ .f32 0x2B8CBCCC#32),
    StableHlo.unary main_cst_1 main_v2 (broadcastInDim S256x64x1 ![] bcast_S_S256x64x1 : (⟨S_, .f32⟩ : BufTy).Contents (Elt F) → (⟨S256x64x1, .f32⟩ : BufTy).Contents (Elt F)),
    StableHlo.binary main_v1 main_v2 main_v3 (maximumf : (⟨S256x64x1, .f32⟩ : BufTy).Contents (Elt F) → (⟨S256x64x1, .f32⟩ : BufTy).Contents (Elt F) → (⟨S256x64x1, .f32⟩ : BufTy).Contents (Elt F)),
    StableHlo.unary main_v3 main_v4 (broadcastInDim S256x64x1024 ![0, 1, 2] bcast_S256x64x1_S256x64x1024_0_1_2 : (⟨S256x64x1, .f32⟩ : BufTy).Contents (Elt F) → (⟨S256x64x1024, .f32⟩ : BufTy).Contents (Elt F)),
    StableHlo.binary main_arg0 main_v4 main_v5 (Host.divf : (⟨S256x64x1024, .f32⟩ : BufTy).Contents (Elt F) → (⟨S256x64x1024, .f32⟩ : BufTy).Contents (Elt F) → (⟨S256x64x1024, .f32⟩ : BufTy).Contents (Elt F)),
    StableHlo.binary main_v5 main_v5 main_v6 ((fun l r => Host.dotGeneral dot_S256x64x1024_S256x64x1024_S256x64x64_2_2_1_1_0_0 none l r) : (⟨S256x64x1024, .f32⟩ : BufTy).Contents (Elt F) → (⟨S256x64x1024, .f32⟩ : BufTy).Contents (Elt F) → (⟨S256x64x64, .f32⟩ : BufTy).Contents (Elt F)),
    StableHlo.nullary main_cst_2 (constant S_ .f32 0x3F800000#32),
    StableHlo.unary main_cst_2 main_v7 (broadcastInDim S256x64x64 ![] bcast_S_S256x64x64 : (⟨S_, .f32⟩ : BufTy).Contents (Elt F) → (⟨S256x64x64, .f32⟩ : BufTy).Contents (Elt F)),
    StableHlo.binary main_v7 main_v6 main_v8 (subf : (⟨S256x64x64, .f32⟩ : BufTy).Contents (Elt F) → (⟨S256x64x64, .f32⟩ : BufTy).Contents (Elt F) → (⟨S256x64x64, .f32⟩ : BufTy).Contents (Elt F)),
    StableHlo.unary main_cst_0 main_v9 (broadcastInDim S1x64x64 ![1, 2] bcast_S64x64_S1x64x64_1_2 : (⟨S64x64, .f32⟩ : BufTy).Contents (Elt F) → (⟨S1x64x64, .f32⟩ : BufTy).Contents (Elt F)),
    StableHlo.nullary main_cst_3 (constant S_ .f32 0x3F800000#32),
    StableHlo.unary main_cst_3 main_v10 (broadcastInDim S1x64x64 ![] bcast_S_S1x64x64 : (⟨S_, .f32⟩ : BufTy).Contents (Elt F) → (⟨S1x64x64, .f32⟩ : BufTy).Contents (Elt F)),
    StableHlo.binary main_v10 main_v9 main_v11 (mulf : (⟨S1x64x64, .f32⟩ : BufTy).Contents (Elt F) → (⟨S1x64x64, .f32⟩ : BufTy).Contents (Elt F) → (⟨S1x64x64, .f32⟩ : BufTy).Contents (Elt F)),
    StableHlo.unary main_v11 main_v12 (broadcastInDim S256x64x64 ![0, 1, 2] bcast_S1x64x64_S256x64x64_0_1_2 : (⟨S1x64x64, .f32⟩ : BufTy).Contents (Elt F) → (⟨S256x64x64, .f32⟩ : BufTy).Contents (Elt F)),
    StableHlo.binary main_v8 main_v12 main_v13 (subf : (⟨S256x64x64, .f32⟩ : BufTy).Contents (Elt F) → (⟨S256x64x64, .f32⟩ : BufTy).Contents (Elt F) → (⟨S256x64x64, .f32⟩ : BufTy).Contents (Elt F)),
    StableHlo.unary main_v8 main_v14 (broadcastInDim S256x64x64x1 ![0, 1, 2] bcast_S256x64x64_S256x64x64x1_0_1_2 : (⟨S256x64x64, .f32⟩ : BufTy).Contents (Elt F) → (⟨S256x64x64x1, .f32⟩ : BufTy).Contents (Elt F)),
    StableHlo.unary main_v13 main_v15 (broadcastInDim S256x64x1x64 ![0, 1, 3] bcast_S256x64x64_S256x64x1x64_0_1_3 : (⟨S256x64x64, .f32⟩ : BufTy).Contents (Elt F) → (⟨S256x64x1x64, .f32⟩ : BufTy).Contents (Elt F)),
    StableHlo.unary main_v14 main_v16 (broadcastInDim S256x64x64x64 ![0, 1, 2, 3] bcast_S256x64x64x1_S256x64x64x64_0_1_2_3 : (⟨S256x64x64x1, .f32⟩ : BufTy).Contents (Elt F) → (⟨S256x64x64x64, .f32⟩ : BufTy).Contents (Elt F)),
    StableHlo.unary main_v15 main_v17 (broadcastInDim S256x64x64x64 ![0, 1, 2, 3] bcast_S256x64x1x64_S256x64x64x64_0_1_2_3 : (⟨S256x64x1x64, .f32⟩ : BufTy).Contents (Elt F) → (⟨S256x64x64x64, .f32⟩ : BufTy).Contents (Elt F)),
    StableHlo.binary main_v16 main_v17 main_v18 (subf : (⟨S256x64x64x64, .f32⟩ : BufTy).Contents (Elt F) → (⟨S256x64x64x64, .f32⟩ : BufTy).Contents (Elt F) → (⟨S256x64x64x64, .f32⟩ : BufTy).Contents (Elt F)),
    StableHlo.unary main_v0 main_v19 (broadcastInDim S256x64x1x1 ![0, 1] bcast_S256x64_S256x64x1x1_0_1 : (⟨S256x64, .f32⟩ : BufTy).Contents (Elt F) → (⟨S256x64x1x1, .f32⟩ : BufTy).Contents (Elt F)),
    StableHlo.unary main_v0 main_v20 (broadcastInDim S256x1x64x1 ![0, 2] bcast_S256x64_S256x1x64x1_0_2 : (⟨S256x64, .f32⟩ : BufTy).Contents (Elt F) → (⟨S256x1x64x1, .f32⟩ : BufTy).Contents (Elt F)),
    StableHlo.unary main_v19 main_v21 (broadcastInDim S256x64x64x1 ![0, 1, 2, 3] bcast_S256x64x1x1_S256x64x64x1_0_1_2_3 : (⟨S256x64x1x1, .f32⟩ : BufTy).Contents (Elt F) → (⟨S256x64x64x1, .f32⟩ : BufTy).Contents (Elt F)),
    StableHlo.unary main_v20 main_v22 (broadcastInDim S256x64x64x1 ![0, 1, 2, 3] bcast_S256x1x64x1_S256x64x64x1_0_1_2_3 : (⟨S256x1x64x1, .f32⟩ : BufTy).Contents (Elt F) → (⟨S256x64x64x1, .f32⟩ : BufTy).Contents (Elt F)),
    StableHlo.binary main_v21 main_v22 main_v23 (mulf : (⟨S256x64x64x1, .f32⟩ : BufTy).Contents (Elt F) → (⟨S256x64x64x1, .f32⟩ : BufTy).Contents (Elt F) → (⟨S256x64x64x1, .f32⟩ : BufTy).Contents (Elt F)),
    StableHlo.unary main_v0 main_v24 (broadcastInDim S256x1x1x64 ![0, 3] bcast_S256x64_S256x1x1x64_0_3 : (⟨S256x64, .f32⟩ : BufTy).Contents (Elt F) → (⟨S256x1x1x64, .f32⟩ : BufTy).Contents (Elt F)),
    StableHlo.unary main_v23 main_v25 (broadcastInDim S256x64x64x64 ![0, 1, 2, 3] bcast_S256x64x64x1_S256x64x64x64_0_1_2_3 : (⟨S256x64x64x1, .f32⟩ : BufTy).Contents (Elt F) → (⟨S256x64x64x64, .f32⟩ : BufTy).Contents (Elt F)),
    StableHlo.unary main_v24 main_v26 (broadcastInDim S256x64x64x64 ![0, 1, 2, 3] bcast_S256x1x1x64_S256x64x64x64_0_1_2_3 : (⟨S256x1x1x64, .f32⟩ : BufTy).Contents (Elt F) → (⟨S256x64x64x64, .f32⟩ : BufTy).Contents (Elt F)),
    StableHlo.binary main_v25 main_v26 main_v27 (mulf : (⟨S256x64x64x64, .f32⟩ : BufTy).Contents (Elt F) → (⟨S256x64x64x64, .f32⟩ : BufTy).Contents (Elt F) → (⟨S256x64x64x64, .f32⟩ : BufTy).Contents (Elt F)),
    StableHlo.unary main_cst main_v28 (broadcastInDim S1x64x64x1 ![1, 2] bcast_S64x64_S1x64x64x1_1_2 : (⟨S64x64, .f32⟩ : BufTy).Contents (Elt F) → (⟨S1x64x64x1, .f32⟩ : BufTy).Contents (Elt F)),
    StableHlo.unary main_v28 main_v29 (broadcastInDim S256x64x64x64 ![0, 1, 2, 3] bcast_S1x64x64x1_S256x64x64x64_0_1_2_3 : (⟨S1x64x64x1, .f32⟩ : BufTy).Contents (Elt F) → (⟨S256x64x64x64, .f32⟩ : BufTy).Contents (Elt F)),
    StableHlo.binary main_v27 main_v29 main_v30 (mulf : (⟨S256x64x64x64, .f32⟩ : BufTy).Contents (Elt F) → (⟨S256x64x64x64, .f32⟩ : BufTy).Contents (Elt F) → (⟨S256x64x64x64, .f32⟩ : BufTy).Contents (Elt F)),
    StableHlo.nullary main_cst_4 (constant S_ .f32 0x3F800000#32),
    StableHlo.unary main_cst_4 main_v31 (broadcastInDim S64x64 ![] bcast_S_S64x64 : (⟨S_, .f32⟩ : BufTy).Contents (Elt F) → (⟨S64x64, .f32⟩ : BufTy).Contents (Elt F)),
    StableHlo.binary main_v31 main_cst main_v32 (subf : (⟨S64x64, .f32⟩ : BufTy).Contents (Elt F) → (⟨S64x64, .f32⟩ : BufTy).Contents (Elt F) → (⟨S64x64, .f32⟩ : BufTy).Contents (Elt F)),
    StableHlo.unary main_v32 main_v33 (broadcastInDim S1x64x1x64 ![1, 3] bcast_S64x64_S1x64x1x64_1_3 : (⟨S64x64, .f32⟩ : BufTy).Contents (Elt F) → (⟨S1x64x1x64, .f32⟩ : BufTy).Contents (Elt F)),
    StableHlo.unary main_v33 main_v34 (broadcastInDim S256x64x64x64 ![0, 1, 2, 3] bcast_S1x64x1x64_S256x64x64x64_0_1_2_3 : (⟨S1x64x1x64, .f32⟩ : BufTy).Contents (Elt F) → (⟨S256x64x64x64, .f32⟩ : BufTy).Contents (Elt F)),
    StableHlo.binary main_v30 main_v34 main_v35 (mulf : (⟨S256x64x64x64, .f32⟩ : BufTy).Contents (Elt F) → (⟨S256x64x64x64, .f32⟩ : BufTy).Contents (Elt F) → (⟨S256x64x64x64, .f32⟩ : BufTy).Contents (Elt F)),
    StableHlo.TRef.nullary main_call1.cst (constant S_ .f32 0x00000000#32),
    StableHlo.TRef.unary main_call1.cst main_call1.v0 (broadcastInDim S256x64x64x64 ![] bcast_S_S256x64x64x64),
    StableHlo.TRef.binary (.of main_v18 : StableHlo.TRef sig ⟨S256x64x64x64, .f32⟩) main_call1.v0 main_call1.v1 maximumf,
    StableHlo.binary main_v36 main_v35 main_v37 (mulf : (⟨S256x64x64x64, .f32⟩ : BufTy).Contents (Elt F) → (⟨S256x64x64x64, .f32⟩ : BufTy).Contents (Elt F) → (⟨S256x64x64x64, .f32⟩ : BufTy).Contents (Elt F)),
    StableHlo.nullary main_cst_5 (constant S_ .f32 0x00000000#32),
    StableHlo.binary main_v37 main_cst_5 main_v38 ((fun x v => Host.reduceAdd x v reducesTo_S256x64x64x64_S_d0_1_2_3 h_S_) : (⟨S256x64x64x64, .f32⟩ : BufTy).Contents (Elt F) → (⟨S_, .f32⟩ : BufTy).Contents (Elt F) → (⟨S_, .f32⟩ : BufTy).Contents (Elt F)),
    StableHlo.nullary main_cst_6 (constant S_ .f32 0x00000000#32),
    StableHlo.binary main_v35 main_cst_6 main_v39 ((fun x v => Host.reduceAdd x v reducesTo_S256x64x64x64_S_d0_1_2_3 h_S_) : (⟨S256x64x64x64, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v39 main_cst_7 main_v40 (cmpf .ogt : (⟨S_, .f32⟩ : BufTy).Contents (Elt F) → (⟨S_, .f32⟩ : BufTy).Contents (Elt F) → (⟨S_, .i1⟩ : BufTy).Contents (Elt F)),
    StableHlo.nullary main_cst_8 (constant S_ .f32 0x3F800000#32),
    StableHlo.binary main_v39 main_cst_8 main_v41 (maximumf : (⟨S_, .f32⟩ : BufTy).Contents (Elt F) → (⟨S_, .f32⟩ : BufTy).Contents (Elt F) → (⟨S_, .f32⟩ : BufTy).Contents (Elt F)),
    StableHlo.binary main_v38 main_v41 main_v42 (Host.divf : (⟨S_, .f32⟩ : BufTy).Contents (Elt F) → (⟨S_, .f32⟩ : BufTy).Contents (Elt F) → (⟨S_, .f32⟩ : BufTy).Contents (Elt F)),
    StableHlo.TRef.ternary (.of main_v40 : StableHlo.TRef sig ⟨S_, .i1⟩) (.of main_v42 : StableHlo.TRef sig ⟨S_, .f32⟩) (.of main_v38 : StableHlo.TRef sig ⟨S_, .f32⟩) main_call2.v0 select ]

set_option maxRecDepth 4096 in
/-- @main is that straight line. -/
theorem main_eq (c : Dev nD) : main (F := F) c = seq ops := by
  simp only [main, fn_norm.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.ternary_bufs_sub ..⟩

/-- Every weakly fair execution of @main terminates with every buffer at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

attribute [local irreducible] Host.reduceAdd in
set_option maxRecDepth 8192 in
set_option maxHeartbeats 400000 in
/-- The fold at the result buffer is the composed term of the two arguments.  Read backwards from the closing select,
    each buffer holds its operation's function of the buffers it reads: the select reads the comparison of the count
    with zero, the quotient and the loss; the quotient reads the loss and the count kept at least one; the loss sums
    the clipped margin times the weight, the count sums the weight; the margin reads the distance matrix twice (once
    less the level-difference term), the distance matrix reads the normalised rows twice, and the weight reads the
    labels three times and the ancestor table twice.  Substituting each buffer's term into its readers gives the term
    `Term.result` spells out name by name; the sums stay folded, being compared as wholes. -/
theorem result_fold (W : Valuation τ sig (Elt F)) :
    after ops W (Proc.devRef .tc main_v43)
      = Term.result (W (Proc.devRef .tc main_arg0)) (W (Proc.devRef .tc main_arg1)) := by
  after_results_simp
  rfl

set_option maxRecDepth 8192 in
/-- No operation writes the first argument: every operation's result buffer is another reference, so each step of
    the fold leaves the argument's contents as they were. -/
theorem arg0_fold (W : Valuation τ sig (Elt F)) :
    after ops W (Proc.devRef .tc main_arg0) = W (Proc.devRef .tc main_arg0) := by
  after_results_simp

set_option maxRecDepth 8192 in
/-- No operation writes the second argument, for the same reason. -/
theorem arg1_fold (W : Valuation τ sig (Elt F)) :
    after ops W (Proc.devRef .tc main_arg1) = W (Proc.devRef .tc main_arg1) := by
  after_results_simp

/-- Every weakly fair execution of @main terminates with the result at `Term.result` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43)
          = Term.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v43).trans (result_fold _),
      (h c main_arg0).trans (arg0_fold _), (h c main_arg1).trans (arg1_fold _)⟩) (run_fold m ρ)

end Cert.ReferenceIdeal.Value

end
-- ==== Proof.RefValue.lean ====
/-
  The reference's composed term, read at the extended reals, is the specification.

  Every operation of the reference is read at one index: a broadcast reads its operand at the coordinates it
  keeps, the elementwise operations are the extended reals' own, the row sum and the two total sums are finite
  sums from zero, and the batched row product is a sum over the one contracted axis.  Put together, the distance
  matrix, the clipped margin and the weight are the specification's at every index, and the result is the closing
  step applied to the specification's two sums over the four-dimensional index set.
-/
import proofs.«131965_j7928509628770_1_alg».proof.Proof.RefTerm
import proofs.«131965_j7928509628770_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Broadcasts read at an index

Each `broadcast_in_dim` of the reference reads its operand at the target's coordinates on the axes it names and at
`0` on the operand's unit axes.  The lemmas below say so for each broadcast (or pair of broadcasts) the reference
uses, at an index given by its coordinates. -/

/-- A scalar spread over a rank-2 shape reads the scalar. -/
theorem scalar2_apply (w : BitVec 32) {n0 n1 : Nat} (h : S_.BroadcastsInDim ⟨2, ![n0, n1]⟩ ![])
    (j : (⟨2, ![n0, n1]⟩ : Shape).Idx) :
    broadcastInDim ⟨2, ![n0, n1]⟩ ![] h (constant (F := Ideal) S_ .f32 w) j = Ideal.ofBits .f32 w :=
  broadcastInDim_apply _ _ _ j ix0 (fun c => c.elim0)

/-- A scalar spread over a rank-3 shape reads the scalar. -/
theorem scalar3_apply (w : BitVec 32) {n0 n1 n2 : Nat} (h : S_.BroadcastsInDim ⟨3, ![n0, n1, n2]⟩ ![])
    (j : (⟨3, ![n0, n1, n2]⟩ : Shape).Idx) :
    broadcastInDim ⟨3, ![n0, n1, n2]⟩ ![] h (constant (F := Ideal) S_ .f32 w) j = Ideal.ofBits .f32 w :=
  broadcastInDim_apply _ _ _ j ix0 (fun c => c.elim0)

/-- A scalar spread over a rank-4 shape reads the scalar. -/
theorem scalar4_apply (w : BitVec 32) {n0 n1 n2 n3 : Nat} (h : S_.BroadcastsInDim ⟨4, ![n0, n1, n2, n3]⟩ ![])
    (j : (⟨4, ![n0, n1, n2, n3]⟩ : Shape).Idx) :
    broadcastInDim ⟨4, ![n0, n1, n2, n3]⟩ ![] h (constant (F := Ideal) S_ .f32 w) j = Ideal.ofBits .f32 w :=
  broadcastInDim_apply _ _ _ j ix0 (fun c => c.elim0)

/-- An array with a trailing unit axis, spread along that axis, reads its own entry at `0` there. -/
theorem lastUnit_apply (Y : FVec Ideal S256x64x64x1 .f32) (b : Fin 256) (a p n : Fin 64) :
    broadcastInDim S256x64x64x64 ![0, 1, 2, 3] bcast_S256x64x64x1_S256x64x64x64_0_1_2_3 Y (ix4 b a p n)
      = Y (ix4 b a p (0 : Fin 1)) :=
  broadcastInDim_apply _ _ _ (ix4 b a p n) (ix4 b a p (0 : Fin 1))
    (fun c => by match c with | ⟨0, _⟩ => rfl | ⟨1, _⟩ => rfl | ⟨2, _⟩ => rfl | ⟨3, _⟩ => rfl)

/-- The distance matrix given a trailing unit axis reads D[b, a, p]. -/
theorem posCol_apply (D : FVec Ideal S256x64x64 .f32) (b : Fin 256) (a p : Fin 64) :
    broadcastInDim S256x64x64x1 ![0, 1, 2] bcast_S256x64x64_S256x64x64x1_0_1_2 D (ix4 b a p (0 : Fin 1)) = D (ix3 b a p) :=
  broadcastInDim_apply _ _ _ (ix4 b a p (0 : Fin 1)) (ix3 b a p)
    (fun c => by match c with | ⟨0, _⟩ => rfl | ⟨1, _⟩ => rfl | ⟨2, _⟩ => rfl)

/-- A 256 × 64 × 64 array placed on axes (0, 1, 3) and spread along axis 2 reads its entry at (b, a, n). -/
theorem negSpread_apply (X : FVec Ideal S256x64x64 .f32) (b : Fin 256) (a p n : Fin 64) :
    broadcastInDim S256x64x64x64 ![0, 1, 2, 3] bcast_S256x64x1x64_S256x64x64x64_0_1_2_3
      (broadcastInDim S256x64x1x64 ![0, 1, 3] bcast_S256x64x64_S256x64x1x64_0_1_3 X) (ix4 b a p n) = X (ix3 b a n) :=
  (broadcastInDim_apply _ _ _ (ix4 b a p n) (ix4 b a (0 : Fin 1) n)
    (fun c => by match c with | ⟨0, _⟩ => rfl | ⟨1, _⟩ => rfl | ⟨2, _⟩ => rfl | ⟨3, _⟩ => rfl)).trans
  (broadcastInDim_apply _ _ _ (ix4 b a (0 : Fin 1) n) (ix3 b a n)
    (fun c => by match c with | ⟨0, _⟩ => rfl | ⟨1, _⟩ => rfl | ⟨2, _⟩ => rfl))

/-- A 64 × 64 table given a leading unit axis and spread over the samples reads its entry at (a, n). -/
theorem tabSpread3_apply (Z : FVec Ideal S1x64x64 .f32) (b : Fin 256) (a n : Fin 64) :
    broadcastInDim S256x64x64 ![0, 1, 2] bcast_S1x64x64_S256x64x64_0_1_2 Z (ix3 b a n) = Z (ix3 (0 : Fin 1) a n) :=
  broadcastInDim_apply _ _ _ (ix3 b a n) (ix3 (0 : Fin 1) a n)
    (fun c => by match c with | ⟨0, _⟩ => rfl | ⟨1, _⟩ => rfl | ⟨2, _⟩ => rfl)

/-- A 64 × 64 table given a leading unit axis reads its entry at (a, n). -/
theorem tabLead_apply (ld : FVec Ideal S64x64 .f32) (a n : Fin 64) :
    broadcastInDim S1x64x64 ![1, 2] bcast_S64x64_S1x64x64_1_2 ld (ix3 (0 : Fin 1) a n) = ld (ix2 a n) :=
  broadcastInDim_apply _ _ _ (ix3 (0 : Fin 1) a n) (ix2 a n)
    (fun c => by match c with | ⟨0, _⟩ => rfl | ⟨1, _⟩ => rfl)

/-- The anchor's label, spread over positives and negatives' column, reads lab[b, a]. -/
theorem labAnchor_apply (lab : FVec Ideal S256x64 .f32) (b : Fin 256) (a p : Fin 64) :
    broadcastInDim S256x64x64x1 ![0, 1, 2, 3] bcast_S256x64x1x1_S256x64x64x1_0_1_2_3
      (broadcastInDim S256x64x1x1 ![0, 1] bcast_S256x64_S256x64x1x1_0_1 lab) (ix4 b a p (0 : Fin 1)) = lab (ix2 b a) :=
  (broadcastInDim_apply _ _ _ (ix4 b a p (0 : Fin 1)) (ix4 b a (0 : Fin 1) (0 : Fin 1))
    (fun c => by match c with | ⟨0, _⟩ => rfl | ⟨1, _⟩ => rfl | ⟨2, _⟩ => rfl | ⟨3, _⟩ => rfl)).trans
  (broadcastInDim_apply _ _ _ (ix4 b a (0 : Fin 1) (0 : Fin 1)) (ix2 b a)
    (fun c => by match c with | ⟨0, _⟩ => rfl | ⟨1, _⟩ => rfl))

/-- The positive's label reads lab[b, p]. -/
theorem labPos_apply (lab : FVec Ideal S256x64 .f32) (b : Fin 256) (a p : Fin 64) :
    broadcastInDim S256x64x64x1 ![0, 1, 2, 3] bcast_S256x1x64x1_S256x64x64x1_0_1_2_3
      (broadcastInDim S256x1x64x1 ![0, 2] bcast_S256x64_S256x1x64x1_0_2 lab) (ix4 b a p (0 : Fin 1)) = lab (ix2 b p) :=
  (broadcastInDim_apply _ _ _ (ix4 b a p (0 : Fin 1)) (ix4 b (0 : Fin 1) p (0 : Fin 1))
    (fun c => by match c with | ⟨0, _⟩ => rfl | ⟨1, _⟩ => rfl | ⟨2, _⟩ => rfl | ⟨3, _⟩ => rfl)).trans
  (broadcastInDim_apply _ _ _ (ix4 b (0 : Fin 1) p (0 : Fin 1)) (ix2 b p)
    (fun c => by match c with | ⟨0, _⟩ => rfl | ⟨1, _⟩ => rfl))

/-- The negative's label reads lab[b, n]. -/
theorem labNeg_apply (lab : FVec Ideal S256x64 .f32) (b : Fin 256) (a p n : Fin 64) :
    broadcastInDim S256x64x64x64 ![0, 1, 2, 3] bcast_S256x1x1x64_S256x64x64x64_0_1_2_3
      (broadcastInDim S256x1x1x64 ![0, 3] bcast_S256x64_S256x1x1x64_0_3 lab) (ix4 b a p n) = lab (ix2 b n) :=
  (broadcastInDim_apply _ _ _ (ix4 b a p n) (ix4 b (0 : Fin 1) (0 : Fin 1) n)
    (fun c => by match c with | ⟨0, _⟩ => rfl | ⟨1, _⟩ => rfl | ⟨2, _⟩ => rfl | ⟨3, _⟩ => rfl)).trans
  (broadcastInDim_apply _ _ _ (ix4 b (0 : Fin 1) (0 : Fin 1) n) (ix2 b n)
    (fun c => by match c with | ⟨0, _⟩ => rfl | ⟨1, _⟩ => rfl))

/-- A 64 × 64 table placed on axes (1, 2) reads its entry at (a, p). -/
theorem tabAP_apply (anc : FVec Ideal S64x64 .f32) (b : Fin 256) (a p n : Fin 64) :
    broadcastInDim S256x64x64x64 ![0, 1, 2, 3] bcast_S1x64x64x1_S256x64x64x64_0_1_2_3
      (broadcastInDim S1x64x64x1 ![1, 2] bcast_S64x64_S1x64x64x1_1_2 anc) (ix4 b a p n) = anc (ix2 a p) :=
  (broadcastInDim_apply _ _ _ (ix4 b a p n) (ix4 (0 : Fin 1) a p (0 : Fin 1))
    (fun c => by match c with | ⟨0, _⟩ => rfl | ⟨1, _⟩ => rfl | ⟨2, _⟩ => rfl | ⟨3, _⟩ => rfl)).trans
  (broadcastInDim_apply _ _ _ (ix4 (0 : Fin 1) a p (0 : Fin 1)) (ix2 a p)
    (fun c => by match c with | ⟨0, _⟩ => rfl | ⟨1, _⟩ => rfl))

/-- A 64 × 64 table placed on axes (1, 3) reads its entry at (a, n). -/
theorem tabAN_apply (X : FVec Ideal S64x64 .f32) (b : Fin 256) (a p n : Fin 64) :
    broadcastInDim S256x64x64x64 ![0, 1, 2, 3] bcast_S1x64x1x64_S256x64x64x64_0_1_2_3
      (broadcastInDim S1x64x1x64 ![1, 3] bcast_S64x64_S1x64x1x64_1_3 X) (ix4 b a p n) = X (ix2 a n) :=
  (broadcastInDim_apply _ _ _ (ix4 b a p n) (ix4 (0 : Fin 1) a (0 : Fin 1) n)
    (fun c => by match c with | ⟨0, _⟩ => rfl | ⟨1, _⟩ => rfl | ⟨2, _⟩ => rfl | ⟨3, _⟩ => rfl)).trans
  (broadcastInDim_apply _ _ _ (ix4 (0 : Fin 1) a (0 : Fin 1) n) (ix2 a n)
    (fun c => by match c with | ⟨0, _⟩ => rfl | ⟨1, _⟩ => rfl))

/-! ## The margin and the weight -/

/-- The negative's term at (b, a, n): the distance less the margin times the level difference. -/
theorem negTerm_apply (D : FVec Ideal S256x64x64 .f32) (ld : FVec Ideal S64x64 .f32) (b : Fin 256) (a n : Fin 64) :
    Term.negTerm (F := Ideal) D ld (ix3 b a n) = D (ix3 b a n) - Cert.Spec.one * ld (ix2 a n) := by
  unfold Term.negTerm
  rw [subf_apply, tabSpread3_apply, mulf_apply, scalar3_apply, tabLead_apply]

/-- The clipped margin at (b, a, p, n). -/
theorem hinge_apply (D : FVec Ideal S256x64x64 .f32) (ld : FVec Ideal S64x64 .f32) (i : S256x64x64x64.Idx) :
    Term.hinge (F := Ideal) D ld i = Cert.Spec.hinge D ld (i 0) (i 1) (i 2) (i 3) := by
  obtain ⟨b, a, p, n, rfl⟩ : ∃ (b : Fin 256) (a p n : Fin 64), i = ix4 b a p n := ⟨i 0, i 1, i 2, i 3, eq_ix4 i⟩
  show Term.hinge (F := Ideal) D ld (ix4 b a p n) = Cert.Spec.hinge D ld b a p n
  unfold Term.hinge Cert.Spec.hinge
  rw [maximumf_apply, subf_apply, lastUnit_apply, posCol_apply, negSpread_apply, negTerm_apply, scalar4_apply]

/-- The weight at (b, a, p, n), grouped as the reference multiplies it. -/
theorem weight_apply (lab : FVec Ideal S256x64 .f32) (anc : FVec Ideal S64x64 .f32) (i : S256x64x64x64.Idx) :
    Term.weight (F := Ideal) lab anc i = Cert.Spec.weightR lab anc (i 0) (i 1) (i 2) (i 3) := by
  obtain ⟨b, a, p, n, rfl⟩ : ∃ (b : Fin 256) (a p n : Fin 64), i = ix4 b a p n := ⟨i 0, i 1, i 2, i 3, eq_ix4 i⟩
  show Term.weight (F := Ideal) lab anc (ix4 b a p n) = Cert.Spec.weightR lab anc b a p n
  unfold Term.weight Cert.Spec.weightR
  rw [mulf_apply, mulf_apply, mulf_apply, lastUnit_apply, mulf_apply, labAnchor_apply, labPos_apply, labNeg_apply,
    tabAP_apply, tabAN_apply, subf_apply, scalar2_apply]

/-! ## The distance matrix -/

/-- The squared length of row (b, l): the reference's sum along the feature axis, from the zero word. -/
theorem rowSum_apply (x : FVec Ideal S256x64x1024 .f32) (b : Fin 256) (l : Fin 64) :
    Host.reduceAdd (F := Ideal) (mulf x x) (constant (F := Ideal) S_ .f32 0x00000000#32)
        reducesTo_S256x64x1024_S256x64_d2 h_S_ (ix2 b l) = Cert.Spec.sumsq x b l := by
  have hr : S256x64x1024.Reduces [2] S256x64 := by decide
  refine (Ideal.hostReduceAdd_single reducesTo_S256x64x1024_S256x64_d2 hr (mulf x x)
    (Ideal.ofBits .f32 0x00000000#32) (ix2 b l)).trans ?_
  rw [Ideal.ofBits_zero_f32, zero_add]
  unfold Cert.Spec.sumsq
  refine Finset.sum_congr rfl fun k _ => ?_
  have e : hr.lift (ix2 b l) k = ix3 b l k :=
    funext fun c => Fin.ext (by match c with | ⟨0, _⟩ => rfl | ⟨1, _⟩ => rfl | ⟨2, _⟩ => rfl)
  rw [e]
  rfl

/-- The length of row (b, l), kept as a column. -/
theorem norm_apply (x : FVec Ideal S256x64x1024 .f32) (b : Fin 256) (l : Fin 64) :
    Term.norm (F := Ideal) x (ix3 b l (0 : Fin 1)) = Ideal.sqrt (Cert.Spec.sumsq x b l) := by
  unfold Term.norm
  exact congrArg Ideal.sqrt ((broadcastInDim_apply _ _ _ (ix3 b l (0 : Fin 1)) (ix2 b l)
    (fun c => by match c with | ⟨0, _⟩ => rfl | ⟨1, _⟩ => rfl)).trans (rowSum_apply x b l))

/-- Row (b, l) of the reference's normalised features is the specification's unit row. -/
theorem unit_apply (x : FVec Ideal S256x64x1024 .f32) (b : Fin 256) (l : Fin 64) (k : Fin 1024) :
    Term.unit (F := Ideal) x (ix3 b l k) = Cert.Spec.unitRow x b l k := by
  unfold Term.unit Cert.Spec.unitRow
  refine congrArg (Ideal.div (x (ix3 b l k))) ?_
  rw [broadcastInDim_apply _ _ _ (ix3 b l k) (ix3 b l (0 : Fin 1))
    (fun c => by match c with | ⟨0, _⟩ => rfl | ⟨1, _⟩ => rfl | ⟨2, _⟩ => rfl), maximumf_apply, norm_apply, scalar3_apply]

/-! The operand indices of the batched row product: axis 0 is the sample, axis 1 the row, axis 2 is contracted. -/

theorem lhs_axis0 (j : S256x64x64.Idx) (k : dot_S256x64x1024_S256x64x1024_S256x64x64_2_2_1_1_0_0.contr.Idx) :
    (dot_S256x64x1024_S256x64x1024_S256x64x64_2_2_1_1_0_0.lhsIdx j k 0).val = (j 0).val := rfl
theorem lhs_axis1 (j : S256x64x64.Idx) (k : dot_S256x64x1024_S256x64x1024_S256x64x64_2_2_1_1_0_0.contr.Idx) :
    (dot_S256x64x1024_S256x64x1024_S256x64x64_2_2_1_1_0_0.lhsIdx j k 1).val = (j 1).val := rfl
theorem lhs_axis2 (j : S256x64x64.Idx) (k : dot_S256x64x1024_S256x64x1024_S256x64x64_2_2_1_1_0_0.contr.Idx) :
    (dot_S256x64x1024_S256x64x1024_S256x64x64_2_2_1_1_0_0.lhsIdx j k 2).val = (k ⟨0, by decide⟩).val :=
  DotDims.lhsIdx_val_of_single _ rfl j k
theorem rhs_axis0 (j : S256x64x64.Idx) (k : dot_S256x64x1024_S256x64x1024_S256x64x64_2_2_1_1_0_0.contr.Idx) :
    (dot_S256x64x1024_S256x64x1024_S256x64x64_2_2_1_1_0_0.rhsIdx j k 0).val = (j 0).val := rfl
theorem rhs_axis1 (j : S256x64x64.Idx) (k : dot_S256x64x1024_S256x64x1024_S256x64x64_2_2_1_1_0_0.contr.Idx) :
    (dot_S256x64x1024_S256x64x1024_S256x64x64_2_2_1_1_0_0.rhsIdx j k 1).val = (j 2).val := rfl
theorem rhs_axis2 (j : S256x64x64.Idx) (k : dot_S256x64x1024_S256x64x1024_S256x64x64_2_2_1_1_0_0.contr.Idx) :
    (dot_S256x64x1024_S256x64x1024_S256x64x64_2_2_1_1_0_0.rhsIdx j k 2).val = (k ⟨0, by decide⟩).val :=
  DotDims.rhsIdx_val_of_single _ rfl j k

/-- At output (b, l, m) and feature k the left operand is read at (b, l, k) … -/
theorem lhs_at (b : Fin 256) (l m : Fin 64) (k : Fin 1024) :
    dot_S256x64x1024_S256x64x1024_S256x64x64_2_2_1_1_0_0.lhsIdx (ix3 b l m)
      ((contrEquiv1 dot_S256x64x1024_S256x64x1024_S256x64x64_2_2_1_1_0_0 1024 rfl rfl).symm k) = ix3 b l k :=
  funext fun c => Fin.ext (by
    match c with
    | ⟨0, _⟩ => exact lhs_axis0 _ _
    | ⟨1, _⟩ => exact lhs_axis1 _ _
    | ⟨2, _⟩ => exact (lhs_axis2 _ _).trans (contrEquiv1_symm_val _ 1024 rfl rfl k))

/-- … and the right operand at (b, m, k). -/
theorem rhs_at (b : Fin 256) (l m : Fin 64) (k : Fin 1024) :
    dot_S256x64x1024_S256x64x1024_S256x64x64_2_2_1_1_0_0.rhsIdx (ix3 b l m)
      ((contrEquiv1 dot_S256x64x1024_S256x64x1024_S256x64x64_2_2_1_1_0_0 1024 rfl rfl).symm k) = ix3 b m k :=
  funext fun c => Fin.ext (by
    match c with
    | ⟨0, _⟩ => exact rhs_axis0 _ _
    | ⟨1, _⟩ => exact rhs_axis1 _ _
    | ⟨2, _⟩ => exact (rhs_axis2 _ _).trans (contrEquiv1_symm_val _ 1024 rfl rfl k))

/-- The distance matrix the reference computes is the specification's. -/
theorem dist_eq (x : FVec Ideal S256x64x1024 .f32) : Term.dist (F := Ideal) x = Cert.Spec.dist x := by
  funext j
  obtain ⟨b, l, m, rfl⟩ : ∃ (b : Fin 256) (l m : Fin 64), j = ix3 b l m := ⟨j 0, j 1, j 2, eq_ix3 j⟩
  show Term.dist (F := Ideal) x (ix3 b l m) = Cert.Spec.one - ∑ k : Fin 1024, Cert.Spec.unitRow x b l k * Cert.Spec.unitRow x b m k
  unfold Term.dist
  rw [subf_apply, scalar3_apply]
  simp only [Host.dotGeneral]
  rw [Ideal.dotGeneral_apply,
    ← Equiv.sum_comp (contrEquiv1 dot_S256x64x1024_S256x64x1024_S256x64x64_2_2_1_1_0_0 1024 rfl rfl).symm]
  refine congrArg (Cert.Spec.one - ·) (Finset.sum_congr rfl fun k _ => ?_)
  rw [lhs_at, rhs_at, unit_apply, unit_apply]

/-! ## The two totals and the result -/

/-- The reference's total of margin times weight is the specification's one sum over (b, a, p, n). -/
theorem lossSum_eq (x : FVec Ideal S256x64x1024 .f32) (lab : FVec Ideal S256x64 .f32) (anc ld : FVec Ideal S64x64 .f32) :
    Term.lossSum (F := Ideal) x lab anc ld = fun _ => Cert.Spec.lossR (Cert.Spec.dist x) lab anc ld := by
  funext j
  unfold Term.lossSum
  refine (Ideal.hostReduceAdd_total reducesTo_S256x64x64x64_S_d0_1_2_3 (fun c => c.elim0) _
    (Ideal.ofBits .f32 0x00000000#32) j).trans ?_
  rw [Ideal.ofBits_zero_f32, zero_add]
  unfold Cert.Spec.lossR
  refine Finset.sum_congr rfl fun i _ => ?_
  rw [mulf_apply, hinge_apply, weight_apply, dist_eq]

/-- The reference's total of the weights is the specification's. -/
theorem countSum_eq (lab : FVec Ideal S256x64 .f32) (anc : FVec Ideal S64x64 .f32) :
    Term.countSum (F := Ideal) lab anc = fun _ => Cert.Spec.countR lab anc := by
  funext j
  unfold Term.countSum
  refine (Ideal.hostReduceAdd_total reducesTo_S256x64x64x64_S_d0_1_2_3 (fun c => c.elim0) _
    (Ideal.ofBits .f32 0x00000000#32) j).trans ?_
  rw [Ideal.ofBits_zero_f32, zero_add]
  unfold Cert.Spec.countR
  exact Finset.sum_congr rfl fun i _ => weight_apply lab anc i

/-- The reference's result is the closing step of the two total sums of the specification. -/
theorem result_eq (x : FVec Ideal S256x64x1024 .f32) (labels : IVec S256x64 32) :
    Term.result (F := Ideal) x labels
      = Cert.Spec.closing
          (fun _ => Cert.Spec.lossR (Cert.Spec.dist x) (sitofp (F := Ideal) .f32 labels)
            (Term.ancTable (F := Ideal)) (Term.ldTable (F := Ideal)))
          (fun _ => Cert.Spec.countR (sitofp (F := Ideal) .f32 labels) (Term.ancTable (F := Ideal))) := by
  unfold Term.result
  rw [lossSum_eq, countSum_eq]
  rfl

end Cert.ReferenceIdeal.RefValue

end
-- ==== Proof.lean ====
/-
  The certificate of the hierarchical triplet loss kernel against its reference.

  Both programs compute, from features x[b, l, d] and labels lab[b, l], the cosine distance matrix
  D[b, l, m] = 1 − Σ_d u[b,l,d]·u[b,m,d] of the row-normalised features u = x / max(‖x‖, ε), then the sum over
  (b, a, p, n) of max(D[b,a,p] − (D[b,a,n] − 1·ld[a,n]), 0) times the weight
  lab[b,a]·lab[b,p]·lab[b,n]·anc[a,p]·(1 − anc[a,n]), the sum of the weights, and the quotient of the two where the
  second is positive.  The kernel does it in two launches — the distance matrix sixteen samples at a time, then one
  anchor a at a time with the sums over b, p, n inside the launch and the sum over a after it — and groups the
  weight as (lab_a·(lab_p·lab_n))·(anc·(1 − anc)); the reference takes one sum over the four-dimensional index set
  and groups the weight from the left.  Products and sums of extended reals are commutative and associative, so the
  two agree with no appeal to finiteness, and the closing step is the same term on both sides.

  * `Spec`: the function, and the two groupings and summation orders shown equal.
  * `KernelRun`: the kernel program's run with the result buffer kept; `Region0`, `Region1`: what each launch
    leaves in its output array; `KernelValue`: the result buffer as the specification of the two arguments.
  * `RefTerm`, `RefRun`: the reference's operations as one term and its run; `RefValue`: that term is the
    specification.
  * `Tables`: the two constant tables are the same words in both programs.
-/
import proofs.«131965_j7928509628770_1_alg».proof.Defs
import proofs.«131965_j7928509628770_1_alg».proof.Proof.Gen.Kernel
import proofs.«131965_j7928509628770_1_alg».proof.Proof.Gen.Kernel.Frame
import proofs.«131965_j7928509628770_1_alg».proof.Proof.Gen.KernelIdeal
import proofs.«131965_j7928509628770_1_alg».proof.Proof.Gen.KernelIdeal.Frame
import proofs.«131965_j7928509628770_1_alg».proof.Proof.Gen.ReferenceIdeal
import proofs.«131965_j7928509628770_1_alg».proof.Proof.Gen.Pre_finite_inputs
import proofs.«131965_j7928509628770_1_alg».proof.Proof.Spec
import proofs.«131965_j7928509628770_1_alg».proof.Proof.Tables
import proofs.«131965_j7928509628770_1_alg».proof.Proof.KernelRun
import proofs.«131965_j7928509628770_1_alg».proof.Proof.KernelValue
import proofs.«131965_j7928509628770_1_alg».proof.Proof.RefRun
import proofs.«131965_j7928509628770_1_alg».proof.Proof.RefValue

noncomputable section

namespace Cert.Proof

open Idealize.ShloMosaic Idealize.ShloMosaic.TcCoe Idealize.SL.Sem

/-- The ancestor table read as extended reals is the same function in both programs. -/
theorem anc_eq : (Cert.ReferenceIdeal.Term.ancTable (F := Ideal) : Cert.Spec.Tab) = Cert.KernelIdeal.Value.ancTable := by
  funext i
  exact congrArg (Ideal.ofBits .f32) (Cert.Tables.anc_words _).symm

/-- The level-difference table read as extended reals is the same function in both programs. -/
theorem ld_eq : (Cert.ReferenceIdeal.Term.ldTable (F := Ideal) : Cert.Spec.Tab) = Cert.KernelIdeal.Value.ldTable := by
  funext i
  exact congrArg (Ideal.ofBits .f32) (Cert.Tables.ld_words _).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the closing step of the anchor-by-anchor loss and count of the kernel's arguments: the kernel's
    by its value reading, the reference's by its own reading, the agreement of the arguments, the two summation orders
    and the two tables. -/
theorem algebraic : Cert.algebraic_KernelIdeal_ReferenceIdeal := by
  intro m ρ m' ρ' _ hagree
  refine ⟨fun c => Cert.Spec.closing
      (fun _ => Cert.Spec.lossK (Cert.Spec.dist (Cert.KernelIdeal.Value.featOf m c)) (Cert.KernelIdeal.Value.labOf m c)
        Cert.KernelIdeal.Value.ancTable Cert.KernelIdeal.Value.ldTable)
      (fun _ => Cert.Spec.countK (Cert.KernelIdeal.Value.labOf m c) Cert.KernelIdeal.Value.ancTable), ?_, ?_⟩
  · exact (θ_run Cert.KernelIdeal.defs _ _).mono
      (fun _ h c => ⟨(h c).1.trans (Cert.KernelIdeal.Value.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.RefValue.result_eq, Cert.Spec.lossR_eq_lossK,
      Cert.Spec.countR_eq_countK, anc_eq, ld_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
